-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x4096x128 .f32) (main_arg1 : FVec F S4x4096x4096 .f32) (main_arg2 : FVec F S128x128 .f32) (main_arg3 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S4x4096x1 : Shape := ⟨3, ![4, 4096, 1]⟩
abbrev S1x1024x4096 : Shape := ⟨3, ![1, 1024, 4096]⟩
abbrev S1x1024x1 : Shape := ⟨3, ![1, 1024, 1]⟩
abbrev S1024x4096 : Shape := ⟨2, ![1024, 4096]⟩
abbrev S1024 : Shape := ⟨1, ![1024]⟩
abbrev S1024x1 : Shape := ⟨2, ![1024, 1]⟩
abbrev S1x128 : Shape := ⟨2, ![1, 128]⟩
abbrev S1x512x4096 : Shape := ⟨3, ![1, 512, 4096]⟩
abbrev S1x4096x128 : Shape := ⟨3, ![1, 4096, 128]⟩
abbrev S1x512x1 : Shape := ⟨3, ![1, 512, 1]⟩
abbrev S1x512x128 : Shape := ⟨3, ![1, 512, 128]⟩
abbrev S512x4096 : Shape := ⟨2, ![512, 4096]⟩
abbrev S4096x128 : Shape := ⟨2, ![4096, 128]⟩
abbrev S512x128 : Shape := ⟨2, ![512, 128]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4x4096x1, .f32⟩
  | .hbm, ⟨5, _⟩ => ⟨S4x4096x128, .f32⟩
  | .hbm, ⟨6, _⟩ => ⟨S4x4096x128, .f32⟩
  | .hbm, ⟨7, _⟩ => ⟨S128x128, .f32⟩
  | .hbm, ⟨8, _⟩ => ⟨S1x128, .f32⟩
  | .hbm, ⟨9, _⟩ => ⟨S4x4096x128, .f32⟩
  | .local _ .vmem, ⟨0, _⟩ => ⟨S1x1024x4096, .f32⟩
  | .local _ .vmem, ⟨1, _⟩ => ⟨S1x1024x4096, .f32⟩
  | .local _ .vmem, ⟨2, _⟩ => ⟨S1x1024x1, .f32⟩
  | .local _ .vmem, ⟨3, _⟩ => ⟨S1x1024x1, .f32⟩
  | .local _ .vmem, ⟨4, _⟩ => ⟨S1x512x4096, .f32⟩
  | .local _ .vmem, ⟨5, _⟩ => ⟨S1x512x4096, .f32⟩
  | .local _ .vmem, ⟨6, _⟩ => ⟨S1x4096x128, .f32⟩
  | .local _ .vmem, ⟨7, _⟩ => ⟨S1x4096x128, .f32⟩
  | .local _ .vmem, ⟨8, _⟩ => ⟨S1x512x1, .f32⟩
  | .local _ .vmem, ⟨9, _⟩ => ⟨S1x512x1, .f32⟩
  | .local _ .vmem, ⟨10, _⟩ => ⟨S128x128, .f32⟩
  | .local _ .vmem, ⟨11, _⟩ => ⟨S1x128, .f32⟩
  | .local _ .vmem, ⟨12, _⟩ => ⟨S1x512x128, .f32⟩
  | .local _ .vmem, ⟨13, _⟩ => ⟨S1x512x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v11 : Index := Scalar.indexCast v1
  let c0_7 : Index := 0#32
  ![v11.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  reduces_S1024x4096_S1024 : S1024x4096.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  bcast_S4x4096x1_S4x4096x128_0_1_2 : S4x4096x1.BroadcastsInDim S4x4096x128 (![0, 1, 2] : Fin 3 → Fin S4x4096x128.rank)
  transposes_S128x128_S128x128_1_0 : S128x128.Transposes [1, 0] S128x128
  shapeCasts_S128_S1x128 : S128.ShapeCasts S1x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  squeezes_S1x4096x128_S4096x128 : S1x4096x128.Squeezes S4096x128
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S512x1_S512x128 : S512x1.Broadcasts S512x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x4096_S4096x128_S512x128_1_0_0_1_n_n_wf : DotDims.WF S512x4096 S4096x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S4x4096x4096.size a
  hwx0_0 : ∀ i : grid0.Coords, EltTy.bits .f32 = 32 ∨ (Rect.block (s := S4x4096x4096) S1x1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x4096x1.size a
  hwx0_1 : ∀ i : grid0.Coords, EltTy.bits .f32 = 32 ∨ (Rect.block (s := S4x4096x1) S1x1024x1.size (cc0_transform_1 i) (hinb0_1 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S4x4096x4096.size a
  hwx1_0 : ∀ i : grid1.Coords, EltTy.bits .f32 = 32 ∨ (Rect.block (s := S4x4096x4096) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x128.size a
  hwx1_1 : ∀ i : grid1.Coords, EltTy.bits .f32 = 32 ∨ (Rect.block (s := S4x4096x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S4x4096x1.size a
  hwx1_2 : ∀ i : grid1.Coords, EltTy.bits .f32 = 32 ∨ (Rect.block (s := S4x4096x1) S1x512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x128.size a ≤ S4x4096x128.size a
  hwx1_5 : ∀ i : grid1.Coords, EltTy.bits .f32 = 32 ∨ (Rect.block (s := S4x4096x128) S1x512x128.size (cc1_transform_5 i) (hinb1_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩
abbrev S128x128 : Shape := ⟨2, ![128, 128]⟩
abbrev S128 : Shape := ⟨1, ![128]⟩
abbrev S4096x4096 : Shape := ⟨2, ![4096, 4096]⟩
abbrev S_ : Shape := ⟨0, ![]⟩
abbrev S1x4096x4096 : Shape := ⟨3, ![1, 4096, 4096]⟩
abbrev S4x4096 : Shape := ⟨2, ![4, 4096]⟩
abbrev S4x4096x1 : Shape := ⟨3, ![4, 4096, 1]⟩
abbrev S4x1x4096 : Shape := ⟨3, ![4, 1, 4096]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S128x128, .f32⟩
  | .hbm, ⟨3, _⟩ => ⟨S128, .f32⟩
  | .hbm, ⟨4, _⟩ => ⟨S4096x4096, .i32⟩
  | .hbm, ⟨5, _⟩ => ⟨S4096x4096, .i32⟩
  | .hbm, ⟨6, _⟩ => ⟨S_, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x4096, .f32⟩
  | .hbm, ⟨11, _⟩ => ⟨S1x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .i1⟩
  | .hbm, ⟨19, _⟩ => ⟨S4x4096, .f32⟩
  | .hbm, ⟨20, _⟩ => ⟨S_, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x4096x128, .f32⟩
  | .hbm, ⟨31, _⟩ => ⟨S4x4096x128, .f32⟩
  | .hbm, ⟨32, _⟩ => ⟨S1x1x128, .f32⟩
  | .hbm, ⟨33, _⟩ => ⟨S4x4096x128, .f32⟩
  | .hbm, ⟨34, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  dot_S4x4096x4096_S4x4096x128_S4x4096x128_2_1_1_2_0_0_wf : DotDims.WF S4x4096x4096 S4x4096x128 S4x4096x128 [2] [1] [1] [2] [0] [0]
  dot_S4x4096x128_S128x128_S4x4096x128_2_1_01_0_n_n_wf : DotDims.WF S4x4096x128 S128x128 S4x4096x128 [2] [1] [0, 1] [0] [] []

variable [Facts₀]

def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf
def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf

class Facts : Prop extends Facts₀ where

variable [Facts]
-- ==== Proof.KRegion0.lean ====
/-
  Region 0 of the kernel program, at any reading of its float values: the degree pass. One grid point holds a [1, 1024, 4096] block of the
  adjacency array and writes the [1, 1024, 1] column of inverse square roots of the rows' degrees. This module states
  what the body leaves in the output window's staging buffer as a function of the input block, proves the body's
  triple, and packages the pipeline's proof data and body obligation at a parameter `V`: the buffers' contents when
  the region is entered.
-/
import proofs.«111270_j75703093559638_1_alg».proof.Proof.Gen.Kernel.Launch
import proofs.«111270_j75703093559638_1_alg».proof.Proof.Gen.Kernel.Skeleton
import proofs.«111270_j75703093559638_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [1, 1024, 4096] block and the whole [1, 1024, 1] column. -/
abbrev rA0 : Rect S1x1024x4096 := Rect.unit (s := S1x1024x4096) ![0, 0, 0] S1x1024x4096.size inb_S1x1024x4096_S1x1024x4096_0_0_0
abbrev rD0 : Rect S1x1024x1 := Rect.unit (s := S1x1024x1) ![0, 0, 0] S1x1024x1.size inb_S1x1024x1_S1x1024x1_0_0_0

/-- The output column after the body: its one store, of the payload of the adjacency block. -/
def out0_1 (x0 : Vec F S1x1024x4096 .f32) : Vec F S1x1024x1 .f32 :=
  View.canon [⟨rD0, k0_pay1 (View.ld x0 rA0)⟩]

theorem cover0_1 (p0 : Vec F S1x1024x1 .f32) (y : S1x1024x1.Idx) :
    ∃ pc ∈ ([⟨rD0, p0⟩] : List (View.Piece (Elt F) S1x1024x1 .f32)), y ∈ pc.1.set :=
  View.cover_of_tiled [⟨rD0, p0⟩] S1x1024x1.size (by rfl) y

set_option maxHeartbeats 1000000 in
/-- The degree body on whole staging memrefs: the adjacency block is read and kept, the column ends at `out0_1`. -/
theorem sound_kernel0 (c : Dev nD) (E : Set ℕ) (i : grid0.Coords) (arg2 : Memref sig .tc .vmem S1x1024x4096 .f32) (harg2 : arg2.IsWhole)
    (arg3 : Memref sig .tc .vmem S1x1024x1 .f32) (harg3 : arg3.IsWhole)
    (x0 : Vec F S1x1024x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_dinv_kernel i arg2 harg2 arg3 harg3) K := by
  simp only [cc0_dinv_kernel_eq_skeleton]; unfold cc0_dinv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pipeline on core `c`: the arrays as the region finds them; after the body the
    adjacency buffer at its block and the column at `out0_1` of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the kernel program, at any reading of its float values: the propagation pass. One grid point holds a [1, 512, 4096] block of the
  adjacency array, the whole [1, 4096, 128] scaled-feature slab of the point's graph, the [1, 512, 1] column of the
  block's row scales, the transposed dense-layer weights and the bias row, and writes the [1, 512, 128] output block.
  Besides the whole slab the body reads 512 of its rows again, those of the block's own nodes, at a row offset computed
  from the grid point: `selfRows` names that read as a function of the slab. This module states what the body leaves in
  the output window's staging buffer, proves the body's triple, and packages the pipeline's proof data and body
  obligation at a parameter `V`: the buffers' contents when the region is entered.
-/
import proofs.«111270_j75703093559638_1_alg».proof.Proof.KRegion0
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole blocks the body's loads and its store go through. -/
abbrev rA1 : Rect S1x512x4096 := Rect.unit (s := S1x512x4096) ![0, 0, 0] S1x512x4096.size inb_S1x512x4096_S1x512x4096_0_0_0
abbrev rX1 : Rect S1x4096x128 := Rect.unit (s := S1x4096x128) ![0, 0, 0] S1x4096x128.size inb_S1x4096x128_S1x4096x128_0_0_0
abbrev rD1 : Rect S1x512x1 := Rect.unit (s := S1x512x1) ![0, 0, 0] S1x512x1.size inb_S1x512x1_S1x512x1_0_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rO1 : Rect S1x512x128 := Rect.unit (s := S1x512x128) ![0, 0, 0] S1x512x128.size inb_S1x512x128_S1x512x128_0_0_0
/-- The 512 rows of the [4096, 128] slab at the point's row offset. -/
abbrev rS1 (i : grid1.Coords) : Rect S4096x128 := Rect.unit (s := S4096x128) (k1_off1 i) S512x128.size (k1_off1_inb i)

/-- The block's own rows of the slab: the slab with its leading unit axis dropped, read at the point's row offset. -/
def selfRows (i : grid1.Coords) (x1 : Vec F S1x4096x128 .f32) : Vec F S512x128 .f32 :=
  fun y => x1 (rX1.emb (Shape.reshapeEquiv squeezes_S1x4096x128_S4096x128.numel_eq ((rS1 i).toLoadRect.idx y)))

/-- The output block after the body: its one store, of the payload of the five input blocks and the block's own rows. -/
def out1_5 (i : grid1.Coords) (x0 : Vec F S1x512x4096 .f32) (x1 : Vec F S1x4096x128 .f32) (x2 : Vec F S1x512x1 .f32)
    (x3 : Vec F S128x128 .f32) (x4 : Vec F S1x128 .f32) : Vec F S1x512x128 .f32 :=
  View.canon [⟨rO1, k1_pay1 (View.ld x0 rA1) (View.ld x1 rX1) (selfRows i x1) (View.ld x3 rW1) (View.ld x2 rD1) (View.ld x4 rB1)⟩]

theorem cover1_5 (p0 : Vec F S1x512x128 .f32) (y : S1x512x128.Idx) :
    ∃ pc ∈ ([⟨rO1, p0⟩] : List (View.Piece (Elt F) S1x512x128 .f32)), y ∈ pc.1.set :=
  View.cover_of_tiled [⟨rO1, p0⟩] S1x512x128.size (by rfl) y

set_option maxHeartbeats 2000000 in
/-- The propagation body on whole staging memrefs: the five inputs are read and kept, the output block ends at `out1_5`. -/
theorem sound_kernel1 (c : Dev nD) (E : Set ℕ) (i : grid1.Coords)
    (arg2 : Memref sig .tc .vmem S1x512x4096 .f32) (harg2 : arg2.IsWhole) (arg3 : Memref sig .tc .vmem S1x4096x128 .f32) (harg3 : arg3.IsWhole)
    (arg4 : Memref sig .tc .vmem S1x512x1 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .f32) (x2 : Vec F S1x512x1 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 i x0 x1 x2 x3 x4)) -∗ K ⟨⟩))
      ⊢ wp frame (wpE (defs₀ (F := F)) Variants.none c none) E (cc1_gcn_kernel i arg2 harg2 arg3 harg3 arg4 harg4 arg5 harg5 arg6 harg6 arg7 harg7) K := by
  simp only [cc1_gcn_kernel_eq_skeleton]; unfold cc1_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  exact View.read_writes_eq_canon _ _ _ (cover1_5 _)

/-- The proof data of the propagation pipeline on core `c`: the arrays as the region finds them; after the body each
    input's buffer at its block and the output's at `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The kernel program's run, at any reading of its float values, from launch to return. Between two items of the program a core's unscoped buffers
  hold: at launch the memory `m`; after the degree pass, the same with the scale array at what the pass's write-backs
  leave; after the four host operations (the scales spread along the features and multiplied into them, the weights
  transposed, the bias laid as a row), their results on top; after the propagation pass, the same with the output array
  at what its write-backs leave. Each pass enters with its arrays split out of the unscoped buffers and leaves with them
  put back. The run's post names every unscoped buffer's final contents, so the argument arrays read back as launched
  and the result array as the propagation pass left it.
-/
import proofs.«111270_j75703093559638_1_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the propagation pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operations write only their four results. -/
theorem hostOps1_keeps (c : Dev nD) (b : Ref sig .tc) (hb : b ∉ ([main_v1, main_v2, main_v3, main_v4] : List (Ref sig .tc))) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := hostOps1_keeps m ρ c main_arg0 (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := hostOps1_keeps m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := hostOps1_keeps m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := hostOps1_keeps m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with the
    region's arrays at what its write-backs leave and every other buffer as entered; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents: the result array at what
    the propagation pass's write-backs leave, each argument array as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Hand

end
-- ==== Proof.KIRegion0.lean ====
/-
  Region 0 of the kernel program, at any reading of its float values: the degree pass. One grid point holds a [1, 1024, 4096] block of the
  adjacency array and writes the [1, 1024, 1] column of inverse square roots of the rows' degrees. This module states
  what the body leaves in the output window's staging buffer as a function of the input block, proves the body's
  triple, and packages the pipeline's proof data and body obligation at a parameter `V`: the buffers' contents when
  the region is entered.
-/
import proofs.«111270_j75703093559638_1_alg».proof.Proof.Gen.KernelIdeal.Launch
import proofs.«111270_j75703093559638_1_alg».proof.Proof.Gen.KernelIdeal.Skeleton
import proofs.«111270_j75703093559638_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's current staging buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole [1, 1024, 4096] block and the whole [1, 1024, 1] column. -/
abbrev rA0 : Rect S1x1024x4096 := Rect.unit (s := S1x1024x4096) ![0, 0, 0] S1x1024x4096.size inb_S1x1024x4096_S1x1024x4096_0_0_0
abbrev rD0 : Rect S1x1024x1 := Rect.unit (s := S1x1024x1) ![0, 0, 0] S1x1024x1.size inb_S1x1024x1_S1x1024x1_0_0_0

/-- The output column after the body: its one store, of the payload of the adjacency block. -/
def out0_1 (x0 : Vec F S1x1024x4096 .f32) : Vec F S1x1024x1 .f32 :=
  View.canon [⟨rD0, k0_pay1 (View.ld x0 rA0)⟩]

theorem cover0_1 (p0 : Vec F S1x1024x1 .f32) (y : S1x1024x1.Idx) :
    ∃ pc ∈ ([⟨rD0, p0⟩] : List (View.Piece (Elt F) S1x1024x1 .f32)), y ∈ pc.1.set :=
  View.cover_of_tiled [⟨rD0, p0⟩] S1x1024x1.size (by rfl) y

set_option maxHeartbeats 1000000 in
/-- The degree body on whole staging memrefs: the adjacency block is read and kept, the column ends at `out0_1`. -/
theorem sound_kernel0 (c : Dev nD) (E : Set ℕ) (i : grid0.Coords) (arg2 : Memref sig .tc .vmem S1x1024x4096 .f32) (harg2 : arg2.IsWhole)
    (arg3 : Memref sig .tc .vmem S1x1024x1 .f32) (harg3 : arg3.IsWhole)
    (x0 : Vec F S1x1024x4096 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0_dinv_kernel i arg2 harg2 arg3 harg3) K := by
  simp only [cc0_dinv_kernel_eq_skeleton]; unfold cc0_dinv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree pipeline on core `c`: the arrays as the region finds them; after the body the
    adjacency buffer at its block and the column at `out0_1` of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Region 1 of the kernel program, at any reading of its float values: the propagation pass. One grid point holds a [1, 512, 4096] block of the
  adjacency array, the whole [1, 4096, 128] scaled-feature slab of the point's graph, the [1, 512, 1] column of the
  block's row scales, the transposed dense-layer weights and the bias row, and writes the [1, 512, 128] output block.
  Besides the whole slab the body reads 512 of its rows again, those of the block's own nodes, at a row offset computed
  from the grid point: `selfRows` names that read as a function of the slab. This module states what the body leaves in
  the output window's staging buffer, proves the body's triple, and packages the pipeline's proof data and body
  obligation at a parameter `V`: the buffers' contents when the region is entered.
-/
import proofs.«111270_j75703093559638_1_alg».proof.Proof.KIRegion0
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole blocks the body's loads and its store go through. -/
abbrev rA1 : Rect S1x512x4096 := Rect.unit (s := S1x512x4096) ![0, 0, 0] S1x512x4096.size inb_S1x512x4096_S1x512x4096_0_0_0
abbrev rX1 : Rect S1x4096x128 := Rect.unit (s := S1x4096x128) ![0, 0, 0] S1x4096x128.size inb_S1x4096x128_S1x4096x128_0_0_0
abbrev rD1 : Rect S1x512x1 := Rect.unit (s := S1x512x1) ![0, 0, 0] S1x512x1.size inb_S1x512x1_S1x512x1_0_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0
abbrev rO1 : Rect S1x512x128 := Rect.unit (s := S1x512x128) ![0, 0, 0] S1x512x128.size inb_S1x512x128_S1x512x128_0_0_0
/-- The 512 rows of the [4096, 128] slab at the point's row offset. -/
abbrev rS1 (i : grid1.Coords) : Rect S4096x128 := Rect.unit (s := S4096x128) (k1_off1 i) S512x128.size (k1_off1_inb i)

/-- The block's own rows of the slab: the slab with its leading unit axis dropped, read at the point's row offset. -/
def selfRows (i : grid1.Coords) (x1 : Vec F S1x4096x128 .f32) : Vec F S512x128 .f32 :=
  fun y => x1 (rX1.emb (Shape.reshapeEquiv squeezes_S1x4096x128_S4096x128.numel_eq ((rS1 i).toLoadRect.idx y)))

/-- The output block after the body: its one store, of the payload of the five input blocks and the block's own rows. -/
def out1_5 (i : grid1.Coords) (x0 : Vec F S1x512x4096 .f32) (x1 : Vec F S1x4096x128 .f32) (x2 : Vec F S1x512x1 .f32)
    (x3 : Vec F S128x128 .f32) (x4 : Vec F S1x128 .f32) : Vec F S1x512x128 .f32 :=
  View.canon [⟨rO1, k1_pay1 (View.ld x0 rA1) (View.ld x1 rX1) (selfRows i x1) (View.ld x3 rW1) (View.ld x2 rD1) (View.ld x4 rB1)⟩]

theorem cover1_5 (p0 : Vec F S1x512x128 .f32) (y : S1x512x128.Idx) :
    ∃ pc ∈ ([⟨rO1, p0⟩] : List (View.Piece (Elt F) S1x512x128 .f32)), y ∈ pc.1.set :=
  View.cover_of_tiled [⟨rO1, p0⟩] S1x512x128.size (by rfl) y

set_option maxHeartbeats 2000000 in
/-- The propagation body on whole staging memrefs: the five inputs are read and kept, the output block ends at `out1_5`. -/
theorem sound_kernel1 (c : Dev nD) (E : Set ℕ) (i : grid1.Coords)
    (arg2 : Memref sig .tc .vmem S1x512x4096 .f32) (harg2 : arg2.IsWhole) (arg3 : Memref sig .tc .vmem S1x4096x128 .f32) (harg3 : arg3.IsWhole)
    (arg4 : Memref sig .tc .vmem S1x512x1 .f32) (harg4 : arg4.IsWhole) (arg5 : Memref sig .tc .vmem S128x128 .f32) (harg5 : arg5.IsWhole)
    (arg6 : Memref sig .tc .vmem S1x128 .f32) (harg6 : arg6.IsWhole) (arg7 : Memref sig .tc .vmem S1x512x128 .f32) (harg7 : arg7.IsWhole)
    (x0 : Vec F S1x512x4096 .f32) (x1 : Vec F S1x4096x128 .f32) (x2 : Vec F S1x512x1 .f32) (x3 : Vec F S128x128 .f32) (x4 : Vec F S1x128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 i x0 x1 x2 x3 x4)) -∗ K ⟨⟩))
      ⊢ wp frame (wpE (defs₀ (F := F)) Variants.none c none) E (cc1_gcn_kernel i arg2 harg2 arg3 harg3 arg4 harg4 arg5 harg5 arg6 harg6 arg7 harg7) K := by
  simp only [cc1_gcn_kernel_eq_skeleton]; unfold cc1_gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_words
  exact View.read_writes_eq_canon _ _ _ (cover1_5 _)

/-- The proof data of the propagation pipeline on core `c`: the arrays as the region finds them; after the body each
    input's buffer at its block and the output's at `out1_5` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (grid1.coords t) (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (grid1.coords t) (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The kernel program's run, at any reading of its float values, from launch to return. Between two items of the program a core's unscoped buffers
  hold: at launch the memory `m`; after the degree pass, the same with the scale array at what the pass's write-backs
  leave; after the four host operations (the scales spread along the features and multiplied into them, the weights
  transposed, the bias laid as a row), their results on top; after the propagation pass, the same with the output array
  at what its write-backs leave. Each pass enters with its arrays split out of the unscoped buffers and leaves with them
  put back. The run's post names every unscoped buffer's final contents, so the argument arrays read back as launched
  and the result array as the propagation pass left it.
-/
import proofs.«111270_j75703093559638_1_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the degree pass: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the propagation pass. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operations write only their four results. -/
theorem hostOps1_keeps (c : Dev nD) (b : Ref sig .tc) (hb : b ∉ ([main_v1, main_v2, main_v3, main_v4] : List (Ref sig .tc))) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false, not_or] at hb
    exact ⟨StableHlo.devRef_ne_of_ne hb.1, StableHlo.devRef_ne_of_ne hb.2.1, StableHlo.devRef_ne_of_ne hb.2.2.1, StableHlo.devRef_ne_of_ne hb.2.2.2⟩))

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := hostOps1_keeps m ρ c main_arg0 (by decide)
    _ = W0 m ρ c (Proc.devRef .tc main_arg0) := W1_of_ne m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := hostOps1_keeps m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := hostOps1_keeps m ρ c main_arg2 (by decide)
    _ = W0 m ρ c (Proc.devRef .tc main_arg2) := W1_of_ne m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := hostOps1_keeps m ρ c main_arg3 (by decide)
    _ = W0 m ρ c (Proc.devRef .tc main_arg3) := W1_of_ne m ρ c main_arg3 (by decide)
    _ = m ((c : Thread nD τ).loc main_arg3) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered with every unscoped buffer at the contents before it, left with the
    region's arrays at what its write-backs leave and every other buffer as entered; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents: the result array at what
    the propagation pass's write-backs leave, each argument array as launched. -/
theorem run_main : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Hand

end
-- ==== Proof.Spec.lean ====
/-
  The two arrangements of one graph-convolution layer as whole-array functions on the extended reals, index by index.

  A batch of four graphs on 4096 nodes: adjacency `A[g, n, k]`, features `X[g, k, d]` (128 of them), a dense layer
  `W[o, d]` with bias `b[o]`. A self loop is added to every node, the degree of node `n` is the row sum of the
  adjacency with the self loop, `s n` its inverse square root (zero where the degree is not positive), and the layer's
  output is `∑_d (∑_k s n · (A n k + [n = k]) · s k · X k d) · W o d + b o`.

  `outR` is that formula as written. `outK` scales the features first, adds the self loop as one extra row term, and
  scales by `s n` once, after the dense layer: `(∑_d (∑_k A n k · (s k · X k d) + s n · X n d) · W o d) · s n + b o`.
  That the two agree on finite inputs is the algebra module's theorem.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev XIdx := (⟨3, ![4, 4096, 128]⟩ : Shape).Idx
abbrev AIdx := (⟨3, ![4, 4096, 4096]⟩ : Shape).Idx
abbrev WIdx := (⟨2, ![128, 128]⟩ : Shape).Idx
abbrev BIdx := (⟨1, ![128]⟩ : Shape).Idx

/-- The inverse square root of a degree, zero where the degree is not positive. -/
def invSqrtPos (d : EReal) : EReal := if 0 < d then Ideal.rsqrt d else 0

/-- A select on "the degree is above zero" is the `if`. -/
theorem select_ogt_zero (d a b : EReal) : Scalar.select (Ideal.cmp .ogt d 0) a b = if 0 < d then a else b := by
  unfold Scalar.select Ideal.cmp
  by_cases h : (0 : EReal) < d <;> simp [h]

/-- The degree as the kernel sums it: the adjacency row, then the self loop's one. -/
def degK (A : AIdx → EReal) (g : Fin 4) (n : Fin 4096) : EReal := (∑ k : Fin 4096, A (ix3 g n k)) + 1

/-- Its inverse square root. -/
def scaleK (A : AIdx → EReal) (g : Fin 4) (n : Fin 4096) : EReal := invSqrtPos (degK A g n)

/-- The kernel's arrangement of the layer. -/
def outK (X : XIdx → EReal) (A : AIdx → EReal) (W : WIdx → EReal) (b : BIdx → EReal) : XIdx → EReal := fun i =>
  (∑ d : Fin 128, ((∑ k : Fin 4096, A (ix3 (i 0) (i 1) k) * (scaleK A (i 0) k * X (ix3 (i 0) k d)))
      + scaleK A (i 0) (i 1) * X (ix3 (i 0) (i 1) d)) * W (ix2 (i 2) d)) * scaleK A (i 0) (i 1) + b (ix1 (i 2))

/-- The self loop: one on the diagonal. -/
def eye (n k : Fin 4096) : EReal := if n = k then 1 else 0

/-- The degree as the reference sums it: from zero, the adjacency row with the self loop added entry by entry. -/
def degR (A : AIdx → EReal) (g : Fin 4) (n : Fin 4096) : EReal := 0 + ∑ k : Fin 4096, (A (ix3 g n k) + eye n k)

def scaleR (A : AIdx → EReal) (g : Fin 4) (n : Fin 4096) : EReal := invSqrtPos (degR A g n)

/-- The reference's arrangement of the layer. -/
def outR (X : XIdx → EReal) (A : AIdx → EReal) (W : WIdx → EReal) (b : BIdx → EReal) : XIdx → EReal := fun i =>
  (∑ d : Fin 128, (∑ k : Fin 4096, ((scaleR A (i 0) (i 1) * (A (ix3 (i 0) (i 1) k) + eye (i 1) k)) * scaleR A (i 0) k) * X (ix3 (i 0) k d))
      * W (ix2 (i 2) d)) + b (ix1 (i 2))

/-- Every entry of an array is a real number. -/
def Finite {ι : Type} (x : ι → EReal) : Prop := ∀ i, ∃ r : ℝ, x i = (r : EReal)

end Cert.Spec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KIPay.lean ====
/-
  The two kernel bodies' arithmetic read at one entry, on the extended reals.

  The degree body: entry `p` of the output column is the inverse square root (zero where not positive) of the block's
  row sum plus one. The propagation body: entry `(p, q)` of the output block is
  `(∑_d ((∑_k a p k · xs k d) + self p d) · wt d q) · s p + bias q`: the block's rows times the whole slab, plus the
  block's own rows, through the transposed dense layer, scaled by the row's scale, plus the bias. The narrowing of the
  operands before each product is the identity on the extended reals.
-/
import proofs.«111270_j75703093559638_1_alg».proof.Proof.Gen.KernelIdeal.Skeleton
import proofs.«111270_j75703093559638_1_alg».proof.Proof.Spec
import proofs.«111270_j75703093559638_1_alg».proof.Proof.LibPlainDot
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The degree body -/

/-- The word `0x3F800000` is the real number one: sign clear, biased exponent 127, mantissa zero. -/
theorem scalar_one : (Scalar.ofBits (F := Ideal) .f32 0x3F800000#32 : Ideal .f32) = (1 : EReal) := by
  show Ideal.ofBits .f32 0x3F800000#32 = 1
  simp [Ideal.ofBits, Ideal.ieee, -EReal.coe_mul]; norm_num

/-- The entrywise inverse square root read at an index. -/
theorem rsqrt_apply {s : Shape} (v : FVec Ideal s .f32) (i : s.Idx) : rsqrt v i = Ideal.rsqrt (v i) := rfl

/-- A vector `[a]` cast to the column `[a, 1]` reads, at `(p, u)`, the vector's entry `p`: both sit at row-major
    position `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the second axis of a `1024 × 4096` array, read at row `p`: the reduced index `p` with the summed
    coordinate `k` put back is `(p, k)`. -/
theorem rowSum_apply (v : FVec Ideal S1024x4096 .f32) (p : Fin 1024) :
    multiReduction (F := Ideal) .add [1] S1024 v 0x00000000#32 reduces_S1024x4096_S1024 (.inl rfl) rfl (ix1 p)
      = ∑ k : Fin 4096, v (ix2 p k) := by
  refine (Ideal.multiReduction_add_single (φ := .f32) v _ reduces_S1024x4096_S1024 _ _ (ix1 p)).trans ?_
  refine Finset.sum_congr rfl fun k _ => congrArg v ?_
  exact funext fun a => Fin.ext (by match a with | ⟨0, _⟩ => rfl | ⟨1, _⟩ => rfl)

/-- The degree of row `p`: the block's row sum, as a column, plus the splat of one. -/
theorem deg_apply (x0 : Vec Ideal S1x1024x4096 .f32) (p : Fin 1024) :
    addf (shapeCast S1024x1
          (multiReduction (F := Ideal) .add [1] S1024 (shapeCast S1024x4096 x0 shapeCasts_S1x1024x4096_S1024x4096)
            0x00000000#32 reduces_S1024x4096_S1024 (.inl rfl) rfl) shapeCasts_S1024_S1024x1)
        (broadcast S1024x1 (Scalar.ofBits (F := Ideal) .f32 0x3F800000#32)) (ix2 p (0 : Fin 1))
      = (∑ k : Fin 4096, x0 (ix3 (0 : Fin 1) p k)) + 1 := by
  rw [addf_apply, broadcast_apply, shapeCast_a_a1_apply, rowSum_apply, scalar_one]
  simp only [shapeCast_1ab_ab_apply]

/-- The degree body's payload at row `p`. -/
theorem k0_pay1_apply (x0 : Vec Ideal S1x1024x4096 .f32) (p : Fin 1024) :
    k0_pay1 (F := Ideal) x0 (ix3 (0 : Fin 1) p (0 : Fin 1))
      = Cert.Spec.invSqrtPos ((∑ k : Fin 4096, x0 (ix3 (0 : Fin 1) p k)) + 1) := by
  unfold k0_pay1
  simp only []
  rw [shapeCast_ab_1ab_apply, select_apply, cmpf_apply, rsqrt_apply, deg_apply, broadcast_apply,
    Cert.LibPlainDot.scalar_zero, Ideal.cmpf_def, Cert.Spec.select_ogt_zero]
  rfl

/-! ## The propagation body -/

/-- The aggregation product: the output's row is the left operand's row. -/
theorem agg_lhs0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

/-- The aggregation product: the left operand's column is the summed position. -/
theorem agg_lhs1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q

/-- The aggregation product: the right operand's row is the summed position. -/
theorem agg_rhs0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q

/-- The aggregation product: the output's column is the right operand's column. -/
theorem agg_rhs1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The aggregation product at `(p, d)`: the narrowed operands are the operands, and the sum over the one shared axis
    runs over its 4096 coordinates. -/
theorem agg_apply (l : FVec Ideal S512x4096 .f32) (r : FVec Ideal S4096x128 .f32) (p : Fin 512) (d : Fin 128) :
    matmul dot_S512x4096_S4096x128_S512x128_1_0_0_1_n_n none (truncf .bf16 l bitsLt_bf16_f32) (truncf .bf16 r bitsLt_bf16_f32)
        (constant (F := Ideal) S512x128 .f32 0x00000000#32) (ix2 p d)
      = ∑ k : Fin 4096, l (ix2 p k) * r (ix2 k d) := by
  refine (Ideal.matmul_constant_zero_apply dot_S512x4096_S4096x128_S512x128_1_0_0_1_n_n none (truncf .bf16 l bitsLt_bf16_f32)
    (truncf .bf16 r bitsLt_bf16_f32) (ix2 p d)).trans ?_
  exact Cert.LibPlainDot.sum_plain dot_S512x4096_S4096x128_S512x128_1_0_0_1_n_n rfl rfl agg_lhs0 agg_lhs1 agg_rhs0 agg_rhs1 l r p d

/-- The dense product: the output's row is the left operand's row. -/
theorem dense_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl

/-- The dense product: the left operand's column is the summed position. -/
theorem dense_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

/-- The dense product: the right operand's row is the summed position. -/
theorem dense_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

/-- The dense product: the output's column is the right operand's column. -/
theorem dense_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The dense product at `(p, q)`, likewise over the 128 shared coordinates. -/
theorem dense_apply (l : FVec Ideal S512x128 .f32) (r : FVec Ideal S128x128 .f32) (p : Fin 512) (q : Fin 128) :
    matmul dot_S512x128_S128x128_S512x128_1_0_0_1_n_n none (truncf .bf16 l bitsLt_bf16_f32) (truncf .bf16 r bitsLt_bf16_f32)
        (constant (F := Ideal) S512x128 .f32 0x00000000#32) (ix2 p q)
      = ∑ d : Fin 128, l (ix2 p d) * r (ix2 d q) := by
  refine (Ideal.matmul_constant_zero_apply dot_S512x128_S128x128_S512x128_1_0_0_1_n_n none (truncf .bf16 l bitsLt_bf16_f32)
    (truncf .bf16 r bitsLt_bf16_f32) (ix2 p q)).trans ?_
  exact Cert.LibPlainDot.sum_plain dot_S512x128_S128x128_S512x128_1_0_0_1_n_n rfl rfl dense_lhs0 dense_lhs1 dense_rhs0 dense_rhs1 l r p q

/-- The propagation body's payload at entry `(p, q)`. -/
theorem k1_pay1_apply (x0 : Vec Ideal S1x512x4096 .f32) (x1 : Vec Ideal S1x4096x128 .f32) (self : Vec Ideal S512x128 .f32)
    (x3 : Vec Ideal S128x128 .f32) (x2 : Vec Ideal S1x512x1 .f32) (x4 : Vec Ideal S1x128 .f32) (p : Fin 512) (q : Fin 128) :
    k1_pay1 (F := Ideal) x0 x1 self x3 x2 x4 (ix3 (0 : Fin 1) p q)
      = (∑ d : Fin 128, ((∑ k : Fin 4096, x0 (ix3 (0 : Fin 1) p k) * x1 (ix3 (0 : Fin 1) k d)) + self (ix2 p d)) * x3 (ix2 d q))
          * x2 (ix3 (0 : Fin 1) p (0 : Fin 1)) + x4 (ix2 (0 : Fin 1) q) := by
  unfold k1_pay1
  rw [shapeCast_ab_1ab_apply, addf_apply, mulf_apply, dense_apply, Cert.LibPlainDot.broadcastTo_a1_ab_apply,
    shapeCast_1ab_ab_apply, broadcastTo_1b_ab_apply]
  simp only [shapeCast_self, addf_apply, agg_apply, shapeCast_1ab_ab_apply]

end Cert.KernelIdeal.Pay

end
-- ==== Proof.SpecPass.lean ====
/-
  The propagation pass's output as a whole-array function of the five arrays it reads: adjacency `A`, scaled features
  `Xs`, the scale column `S`, the transposed weights `WT` and the bias row `Br`:
  `(∑_d ((∑_k A n k · Xs k d) + Xs n d) · WT d o) · S n + Br o`; and the degree pass's output column.
-/
import proofs.«111270_j75703093559638_1_alg».proof.Proof.Spec

noncomputable section

open scoped BigOperators

namespace Cert.Spec

open Idealize.ShloMosaic Idealize.ShloMosaic.ValueIdx

abbrev SIdx := (⟨3, ![4, 4096, 1]⟩ : Shape).Idx
abbrev RIdx := (⟨2, ![1, 128]⟩ : Shape).Idx

/-- The scale column the degree pass writes. -/
def scaleCol (A : AIdx → EReal) : SIdx → EReal := fun i => scaleK A (i 0) (i 1)

/-- The propagation pass's output. -/
def passOut (A : AIdx → EReal) (Xs : XIdx → EReal) (S : SIdx → EReal) (WT : WIdx → EReal) (Br : RIdx → EReal) : XIdx → EReal := fun i =>
  (∑ d : Fin 128, ((∑ k : Fin 4096, A (ix3 (i 0) (i 1) k) * Xs (ix3 (i 0) k d)) + Xs (ix3 (i 0) (i 1) d)) * WT (ix2 d (i 2)))
    * S (ix3 (i 0) (i 1) (0 : Fin 1)) + Br (ix2 (0 : Fin 1) (i 2))

end Cert.Spec

end
-- ==== Proof.KIValue0.lean ====
/-
  From blocks to the array, for the degree pass: the scale array after the pass is the inverse square root of every
  row's degree. Point `t` of the 4 × 4 grid writes rows 1024·(t mod 4) … of graph t / 4; what it writes is the degree
  body's payload of the same rows of the adjacency array; the sixteen blocks tile the array.
-/
import proofs.«111270_j75703093559638_1_alg».proof.Proof.KIRegion0
import proofs.«111270_j75703093559638_1_alg».proof.Proof.KIPay
import proofs.«111270_j75703093559638_1_alg».proof.Proof.SpecPass
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The offsets of a whole-block rectangle are all zero. -/
theorem deg_zero3 : (![0, 0, 0] : Fin 3 → Nat) = fun _ => 0 := funext fun a => by fin_cases a <;> rfl

/-- The two index maps over the grid: point `t` holds graph `t / 4` and row block `t % 4`, in both windows. -/
theorem deg_idx_facts : ∀ t : Fin cfg0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0 :=
  (by decide +kernel : ∀ t : Fin grid0.N, _)

/-- Row `p` of the adjacency block at point `t` is row `1024·(t % 4) + p` of graph `t / 4`. -/
theorem deg_adj_blk_apply (c : Dev nD) (t : Fin cfg0.N) (p : Fin 1024) (k : Fin 4096) (g : Fin 4) (n : Fin 4096)
    (hg : g.val = t.val / 4) (hn : n.val = (t.val % 4) * 1024 + p.val) :
    (iblk0 V c 0 t : Vec Ideal S1x1024x4096 .f32) (ix3 (0 : Fin 1) p k) = (V c main_arg1 : Cert.Spec.AIdx → EReal) (ix3 g n k) := by
  obtain ⟨e0, e1, e2, -, -, -⟩ := deg_idx_facts t
  unfold iblk0
  rw [View.read_apply]
  show V c main_arg1 _ = V c main_arg1 _
  congr 1
  funext a
  apply Fin.ext
  match a with
  | ⟨0, _⟩ => show win0_0.index t (0 : Fin 3) * 1 + 1 * 0 = g.val; rw [e0, hg]; omega
  | ⟨1, _⟩ => show win0_0.index t (1 : Fin 3) * 1024 + 1 * p.val = n.val; rw [e1, hn]; omega
  | ⟨2, _⟩ => show win0_0.index t (2 : Fin 3) * 4096 + 1 * k.val = k.val; rw [e2]; omega

/-- One entry of the column a point writes: when the block's rows are rows `1024·r + p` of graph `g`, entry `p` of the
    payload is the inverse square root of that row's degree in the whole array. -/
theorem deg_scale_row (x0 : Vec Ideal S1x1024x4096 .f32) (A : Cert.Spec.AIdx → EReal) (g : Fin 4) (r : Nat)
    (hx : ∀ (p : Fin 1024) (k : Fin 4096) (n : Fin 4096), n.val = r * 1024 + p.val → x0 (ix3 (0 : Fin 1) p k) = A (ix3 g n k))
    (y : S1x1024x1.Idx) (i : Cert.Spec.SIdx) (hi0 : (i 0).val = g.val) (hi1 : (i 1).val = r * 1024 + (y 1).val) :
    k0_pay1 (F := Ideal) x0 y = Cert.Spec.scaleCol A i := by
  have hy : y = ix3 (0 : Fin 1) (y 1) (0 : Fin 1) := by
    funext a
    match a with
    | ⟨0, _⟩ => exact Subsingleton.elim (α := Fin 1) _ _
    | ⟨1, _⟩ => rfl
    | ⟨2, _⟩ => exact Subsingleton.elim (α := Fin 1) _ _
  have hg : i 0 = g := Fin.ext hi0
  rw [hy]
  refine (Cert.KernelIdeal.Pay.k0_pay1_apply x0 (y 1)).trans ?_
  show Cert.Spec.invSqrtPos ((∑ k : Fin 4096, x0 (ix3 (0 : Fin 1) (y 1) k)) + 1) = Cert.Spec.invSqrtPos ((∑ k : Fin 4096, A (ix3 (i 0) (i 1) k)) + 1)
  congr 2
  refine Finset.sum_congr rfl fun k _ => ?_
  rw [hx (y 1) k (i 1) hi1, hg]

/-- A point of the grid is below sixteen. -/
theorem deg_pt_lt (t : Fin cfg0.N) : t.val < 16 := lt_of_lt_of_eq t.isLt (N_0 : cfg0.N = 16)

/-- What point `t` writes back is its block of the scale column of the adjacency array. -/
theorem deg_scale_flushed (c : Dev nD) (t : Fin cfg0.N) :
    (dat0 (F := Ideal) V c).flushed 1 t = ((cfg0.win 1).blk t).view.read (Elt Ideal) (Cert.Spec.scaleCol (V c main_arg1)) := by
  show (cfg0.win 1).cut (grid0.coords t) ((dat0 (F := Ideal) V c).after 1 t) = _
  rw [after0_1]
  unfold out0_1
  rw [View.canon_unit_zero deg_zero3]
  simp only [View.ld_unit_zero (S := S1x1024x4096) deg_zero3]
  obtain ⟨-, -, -, e0, e1, e2⟩ := deg_idx_facts t
  have ht := deg_pt_lt t
  funext y
  rw [View.read_apply]
  show k0_pay1 (F := Ideal) (iblk0 V c 0 t) y = Cert.Spec.scaleCol (V c main_arg1) (((cfg0.win 1).blk t).view.emb y)
  have hy0 : (y 0).val < 1 := (y 0).isLt
  refine deg_scale_row (iblk0 V c 0 t) (V c main_arg1) ⟨t.val / 4, by omega⟩ (t.val % 4)
    (fun p k n hn => deg_adj_blk_apply V c t p k ⟨t.val / 4, by omega⟩ n rfl hn) y (((cfg0.win 1).blk t).view.emb y) ?_ ?_
  · show win0_1.index t (0 : Fin 3) * 1 + 1 * (y 0).val = t.val / 4
    rw [e0]; omega
  · show win0_1.index t (1 : Fin 3) * 1024 + 1 * (y 1).val = t.val % 4 * 1024 + (y 1).val
    rw [e1]; omega

/-- An index of the scale array is in point `t`'s block iff each coordinate is in the block's range on its axis. -/
theorem deg_mem_blk (t : Fin cfg0.N) (i : S4x4096x1.Idx) :
    i ∈ ((cfg0.win 1).blk t).view.set ↔ ∀ a : Fin 3, win0_1.index t a * S1x1024x1.size a ≤ (i a).val ∧ (i a).val < win0_1.index t a * S1x1024x1.size a + S1x1024x1.size a := by
  show i ∈ ((View.whole main_v0).slice (win0_1.rect t)).set ↔ _
  rw [View.set_slice_whole, Rect.mem_set_unit]
  exact Iff.rfl

/-- The sixteen blocks tile the scale array: row `n` of graph `g` is in the block of point `4·g + n / 1024`. -/
theorem deg_cover (i : S4x4096x1.Idx) : ∃ t : Fin cfg0.N, (cfg0.win 1).flush t = true ∧ i ∈ ((cfg0.win 1).blk t).view.set := by
  have h0 : (i 0).val < 4 := (i 0).isLt
  have h1 : (i 1).val < 4096 := (i 1).isLt
  have h2 : (i 2).val < 1 := (i 2).isLt
  obtain ⟨t, tv⟩ : ∃ t : Fin cfg0.N, t.val = (i 0).val * 4 + (i 1).val / 1024 :=
    ⟨⟨(i 0).val * 4 + (i 1).val / 1024, lt_of_lt_of_eq (by omega : (i 0).val * 4 + (i 1).val / 1024 < 16) (N_0 : cfg0.N = 16).symm⟩, rfl⟩
  obtain ⟨-, -, -, e0, e1, e2⟩ := deg_idx_facts t
  refine ⟨t, flush0_1 t, ?_⟩
  rw [deg_mem_blk]
  intro a
  match a with
  | ⟨0, _⟩ => show win0_1.index t (0 : Fin 3) * 1 ≤ (i 0).val ∧ (i 0).val < win0_1.index t (0 : Fin 3) * 1 + 1; rw [e0, tv]; omega
  | ⟨1, _⟩ => show win0_1.index t (1 : Fin 3) * 1024 ≤ (i 1).val ∧ (i 1).val < win0_1.index t (1 : Fin 3) * 1024 + 1024; rw [e1, tv]; omega
  | ⟨2, _⟩ => show win0_1.index t (2 : Fin 3) * 1 ≤ (i 2).val ∧ (i 2).val < win0_1.index t (2 : Fin 3) * 1 + 1; rw [e2]; omega

/-- The scale array after the degree pass, as a function of the adjacency array the pass found. -/
theorem scale_final (c : Dev nD) : (dat0 (F := Ideal) V c).arrAt 1 cfg0.N = Cert.Spec.scaleCol (V c main_arg1) :=
  (dat0 (F := Ideal) V c).arrAt_eq_of_cover 1 (Cert.Spec.scaleCol (V c main_arg1)) (fun t _ => deg_scale_flushed V c t) deg_cover

end Cert.KernelIdeal.Hand

end
-- ==== Proof.KIValue1.lean ====
/-
  From blocks to the array, for the propagation pass: the output array after the pass, as a function of the five arrays
  the pass found. Point `t` of the 4 × 8 grid writes rows 512·(t mod 8) … of graph t / 8; what it writes is the
  propagation body's payload of the same rows of the adjacency array, the graph's whole slab of scaled features, the
  slab's rows 512·(t mod 8) … once more, the rows' scales, the transposed weights and the bias row; the thirty-two
  blocks tile the array.
-/
import proofs.«111270_j75703093559638_1_alg».proof.Proof.KIRegion1
import proofs.«111270_j75703093559638_1_alg».proof.Proof.KIPay
import proofs.«111270_j75703093559638_1_alg».proof.Proof.SpecPass
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- At point `t` the graph is `t / 8` and the row block `t mod 8`: the adjacency, scale and output windows sit at block
    `(t / 8, t mod 8, 0)`, the feature slab at `(t / 8, 0, 0)`, the weights and the bias at the origin, and the body's
    second read of the slab starts at row `512 · (t mod 8)`, column 0. Decided over the thirty-two points. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0
    ∧ k1_off1 (grid1.coords t) (0 : Fin 2) = 512 * (t.val % 8) ∧ k1_off1 (grid1.coords t) (1 : Fin 2) = 0
    ∧ t.val < 32 :=
  (by decide +kernel : ∀ t : Fin grid1.N, _)

/-- Every pair (graph, row block) is some point's: point `8 g + r`. -/
theorem pt_onto1 : ∀ (g : Fin 4) (r : Fin 8), ∃ t : Fin cfg1.N, t.val = 8 * g.val + r.val :=
  (by decide +kernel : ∀ (g : Fin 4) (r : Fin 8), ∃ t : Fin grid1.N, t.val = 8 * g.val + r.val)

/-! ## The body's reads, entry by entry -/

/-- The block's own rows of the slab: entry `(p, d)` is the slab's entry `(0, n, d)`, `n` the row offset plus `p`. -/
theorem selfRows_apply (i : grid1.Coords) (x1 : Vec Ideal S1x4096x128 .f32) (p : Fin 512) (d : Fin 128) (n : Fin 4096)
    (hn : n.val = k1_off1 i (0 : Fin 2) + p.val) (h1 : k1_off1 i (1 : Fin 2) = 0) :
    selfRows i x1 (ix2 p d) = x1 (ix3 (0 : Fin 1) n d) := by
  unfold selfRows
  have e : (rS1 i).toLoadRect.idx (ix2 p d) = ix2 n d := by
    funext a; apply Fin.ext
    match a with
    | ⟨0, _⟩ => show k1_off1 i (0 : Fin 2) + 1 * p.val = n.val; omega
    | ⟨1, _⟩ => show k1_off1 i (1 : Fin 2) + 1 * d.val = d.val; omega
  rw [e, reshapeEquiv_ix2_1ab]
  refine congrArg x1 (funext fun a => Fin.ext ?_)
  match a with
  | ⟨0, _⟩ => rfl
  | ⟨1, _⟩ => show 0 + 1 * n.val = n.val; omega
  | ⟨2, _⟩ => show 0 + 1 * d.val = d.val; omega

/-- The adjacency block at point `t`: row `p` of the block is row `n = 512 · (t mod 8) + p` of graph `g = t / 8`. -/
theorem blockA_apply (c : Dev nD) (t : Fin cfg1.N) (p : Fin 512) (k : Fin 4096) (g : Fin 4) (n : Fin 4096)
    (hg : g.val = t.val / 8) (hn : n.val = 512 * (t.val % 8) + p.val) :
    (iblk1 V c 0 t : Vec Ideal S1x512x4096 .f32) (ix3 (0 : Fin 1) p k)
      = (V c main_arg1 : Cert.Spec.AIdx → EReal) (ix3 g n k) := by
  obtain ⟨e0, e1, e2, -⟩ := idx_facts1 t
  unfold iblk1
  show V c main_arg1 (((cfg1.win 0).blk t).view.emb (ix3 (0 : Fin 1) p k)) = _
  refine congrArg (V c main_arg1) (funext fun a => Fin.ext ?_)
  match a with
  | ⟨0, _⟩ => show win1_0.index t (0 : Fin 3) * 1 + 1 * 0 = g.val; omega
  | ⟨1, _⟩ => show win1_0.index t (1 : Fin 3) * 512 + 1 * p.val = n.val; omega
  | ⟨2, _⟩ => show win1_0.index t (2 : Fin 3) * 4096 + 1 * k.val = k.val; omega

/-- The feature block at point `t` is the whole slab of graph `g = t / 8`. -/
theorem blockX_apply (c : Dev nD) (t : Fin cfg1.N) (k : Fin 4096) (d : Fin 128) (g : Fin 4) (hg : g.val = t.val / 8) :
    (iblk1 V c 1 t : Vec Ideal S1x4096x128 .f32) (ix3 (0 : Fin 1) k d)
      = (V c main_v2 : Cert.Spec.XIdx → EReal) (ix3 g k d) := by
  obtain ⟨-, -, -, e0, e1, e2, -⟩ := idx_facts1 t
  unfold iblk1
  show V c main_v2 (((cfg1.win 1).blk t).view.emb (ix3 (0 : Fin 1) k d)) = _
  refine congrArg (V c main_v2) (funext fun a => Fin.ext ?_)
  match a with
  | ⟨0, _⟩ => show win1_1.index t (0 : Fin 3) * 1 + 1 * 0 = g.val; omega
  | ⟨1, _⟩ => show win1_1.index t (1 : Fin 3) * 4096 + 1 * k.val = k.val; omega
  | ⟨2, _⟩ => show win1_1.index t (2 : Fin 3) * 128 + 1 * d.val = d.val; omega

/-- The scale block at point `t`: entry `p` is the scale of row `n = 512 · (t mod 8) + p` of graph `g = t / 8`. -/
theorem blockS_apply (c : Dev nD) (t : Fin cfg1.N) (p : Fin 512) (g : Fin 4) (n : Fin 4096)
    (hg : g.val = t.val / 8) (hn : n.val = 512 * (t.val % 8) + p.val) :
    (iblk1 V c 2 t : Vec Ideal S1x512x1 .f32) (ix3 (0 : Fin 1) p (0 : Fin 1))
      = (V c main_v0 : Cert.Spec.SIdx → EReal) (ix3 g n (0 : Fin 1)) := by
  obtain ⟨-, -, -, -, -, -, e0, e1, e2, -⟩ := idx_facts1 t
  unfold iblk1
  show V c main_v0 (((cfg1.win 2).blk t).view.emb (ix3 (0 : Fin 1) p (0 : Fin 1))) = _
  refine congrArg (V c main_v0) (funext fun a => Fin.ext ?_)
  match a with
  | ⟨0, _⟩ => show win1_2.index t (0 : Fin 3) * 1 + 1 * 0 = g.val; omega
  | ⟨1, _⟩ => show win1_2.index t (1 : Fin 3) * 512 + 1 * p.val = n.val; omega
  | ⟨2, _⟩ => show win1_2.index t (2 : Fin 3) * 1 + 1 * 0 = 0; omega

/-- The weight block at every point is the whole transposed weight array. -/
theorem blockW_apply (c : Dev nD) (t : Fin cfg1.N) (d q : Fin 128) :
    (iblk1 V c 3 t : Vec Ideal S128x128 .f32) (ix2 d q) = (V c main_v3 : Cert.Spec.WIdx → EReal) (ix2 d q) := by
  obtain ⟨-, -, -, -, -, -, -, -, -, e0, e1, -⟩ := idx_facts1 t
  unfold iblk1
  show V c main_v3 (((cfg1.win 3).blk t).view.emb (ix2 d q)) = _
  refine congrArg (V c main_v3) (funext fun a => Fin.ext ?_)
  match a with
  | ⟨0, _⟩ => show win1_3.index t (0 : Fin 2) * 128 + 1 * d.val = d.val; omega
  | ⟨1, _⟩ => show win1_3.index t (1 : Fin 2) * 128 + 1 * q.val = q.val; omega

/-- The bias block at every point is the whole bias row. -/
theorem blockB_apply (c : Dev nD) (t : Fin cfg1.N) (q : Fin 128) :
    (iblk1 V c 4 t : Vec Ideal S1x128 .f32) (ix2 (0 : Fin 1) q) = (V c main_v4 : Cert.Spec.RIdx → EReal) (ix2 (0 : Fin 1) q) := by
  obtain ⟨-, -, -, -, -, -, -, -, -, -, -, e0, e1, -⟩ := idx_facts1 t
  unfold iblk1
  show V c main_v4 (((cfg1.win 4).blk t).view.emb (ix2 (0 : Fin 1) q)) = _
  refine congrArg (V c main_v4) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-! ## One entry of one block -/

/-- Entry `(p, q)` of the block a point leaves, when its five input blocks are the rows `n` (for block row `p`) of graph
    `g` of the arrays `A`, `Xs`, `S`, the whole of `WT` and `Br`, and its second read of the slab starts at the row
    offset with `n` = offset + `p`: the pass's formula at `(g, n, q)`. -/
theorem point_value (i : grid1.Coords) (x0 : Vec Ideal S1x512x4096 .f32) (x1 : Vec Ideal S1x4096x128 .f32)
    (x2 : Vec Ideal S1x512x1 .f32) (x3 : Vec Ideal S128x128 .f32) (x4 : Vec Ideal S1x128 .f32)
    (A : Cert.Spec.AIdx → EReal) (Xs : Cert.Spec.XIdx → EReal) (S : Cert.Spec.SIdx → EReal)
    (WT : Cert.Spec.WIdx → EReal) (Br : Cert.Spec.RIdx → EReal)
    (g : Fin 4) (p : Fin 512) (q : Fin 128) (n : Fin 4096)
    (hn : n.val = k1_off1 i (0 : Fin 2) + p.val) (hoff1 : k1_off1 i (1 : Fin 2) = 0)
    (h0 : ∀ k : Fin 4096, x0 (ix3 (0 : Fin 1) p k) = A (ix3 g n k))
    (h1 : ∀ (k : Fin 4096) (d : Fin 128), x1 (ix3 (0 : Fin 1) k d) = Xs (ix3 g k d))
    (h2 : x2 (ix3 (0 : Fin 1) p (0 : Fin 1)) = S (ix3 g n (0 : Fin 1)))
    (h3 : ∀ d : Fin 128, x3 (ix2 d q) = WT (ix2 d q))
    (h4 : x4 (ix2 (0 : Fin 1) q) = Br (ix2 (0 : Fin 1) q)) :
    out1_5 i x0 x1 x2 x3 x4 (ix3 (0 : Fin 1) p q) = Cert.Spec.passOut A Xs S WT Br (ix3 g n q) := by
  unfold out1_5
  rw [View.canon_unit_zero hz3]
  refine (Cert.KernelIdeal.Pay.k1_pay1_apply (View.ld x0 rA1) (View.ld x1 rX1) (selfRows i x1) (View.ld x3 rW1) (View.ld x2 rD1) (View.ld x4 rB1) p q).trans ?_
  rw [View.ld_unit_zero (S := S1x512x4096) hz3, View.ld_unit_zero (S := S1x4096x128) hz3, View.ld_unit_zero (S := S128x128) hz2,
    View.ld_unit_zero (S := S1x512x1) hz3, View.ld_unit_zero (S := S1x128) hz2]
  show _ = (∑ d : Fin 128, ((∑ k : Fin 4096, A (ix3 g n k) * Xs (ix3 g k d)) + Xs (ix3 g n d)) * WT (ix2 d q))
      * S (ix3 g n (0 : Fin 1)) + Br (ix2 (0 : Fin 1) q)
  rw [h2, h4]
  refine congrArg (fun z => z * S (ix3 g n (0 : Fin 1)) + Br (ix2 (0 : Fin 1) q)) (Finset.sum_congr rfl fun d _ => ?_)
  rw [h3 d, selfRows_apply i x1 p d n hn hoff1, h1 n d]
  refine congrArg (fun z => (z + Xs (ix3 g n d)) * WT (ix2 d q)) (Finset.sum_congr rfl fun k _ => ?_)
  rw [h0 k, h1 k d]

/-! ## What a point writes back, the cover, the array -/

/-- What point `t` writes back is block `t` of the pass's formula of the five arrays. -/
theorem flushed1_eq (c : Dev nD) (t : Fin cfg1.N) :
    (dat1 (F := Ideal) V c).flushed 5 t = ((cfg1.win 5).blk t).view.read (Elt Ideal)
      (Cert.Spec.passOut (V c main_arg1) (V c main_v2) (V c main_v0) (V c main_v3) (V c main_v4)) := by
  show (cfg1.win 5).cut (grid1.coords t) ((dat1 (F := Ideal) V c).after 5 t) = _
  rw [after1_5]
  obtain ⟨-, -, -, -, -, -, -, -, -, -, -, -, -, e0, e1, e2, o0, o1, ht⟩ := idx_facts1 t
  refine funext fun (y : S1x512x128.Idx) => ?_
  show out1_5 (grid1.coords t) (iblk1 V c 0 t) (iblk1 V c 1 t) (iblk1 V c 2 t) (iblk1 V c 3 t) (iblk1 V c 4 t) y
    = Cert.Spec.passOut (V c main_arg1) (V c main_v2) (V c main_v0) (V c main_v3) (V c main_v4) (((cfg1.win 5).blk t).view.emb y)
  obtain ⟨z, p, q, rfl⟩ : ∃ (z : Fin 1) (p : Fin 512) (q : Fin 128), y = ix3 z p q := ⟨y 0, y 1, y 2, eq_ix3 y⟩
  obtain rfl : z = 0 := Subsingleton.elim _ _
  have hp : p.val < 512 := p.isLt
  have hemb : ((cfg1.win 5).blk t).view.emb (ix3 (0 : Fin 1) p q)
      = (ix3 (⟨t.val / 8, by omega⟩ : Fin 4) (⟨512 * (t.val % 8) + p.val, by omega⟩ : Fin 4096) q : S4x4096x128.Idx) := by
    funext a; apply Fin.ext
    match a with
    | ⟨0, _⟩ => show win1_5.index t (0 : Fin 3) * 1 + 1 * 0 = t.val / 8; omega
    | ⟨1, _⟩ => show win1_5.index t (1 : Fin 3) * 512 + 1 * p.val = 512 * (t.val % 8) + p.val; omega
    | ⟨2, _⟩ => show win1_5.index t (2 : Fin 3) * 128 + 1 * q.val = q.val; omega
  refine Eq.trans ?_ (congrArg (Cert.Spec.passOut (V c main_arg1) (V c main_v2) (V c main_v0) (V c main_v3) (V c main_v4)) hemb.symm)
  exact point_value (grid1.coords t) (iblk1 V c 0 t) (iblk1 V c 1 t) (iblk1 V c 2 t) (iblk1 V c 3 t) (iblk1 V c 4 t)
    (V c main_arg1) (V c main_v2) (V c main_v0) (V c main_v3) (V c main_v4)
    (⟨t.val / 8, by omega⟩ : Fin 4) p q (⟨512 * (t.val % 8) + p.val, by omega⟩ : Fin 4096)
    (by show 512 * (t.val % 8) + p.val = k1_off1 (grid1.coords t) (0 : Fin 2) + p.val; omega) o1
    (fun k => blockA_apply V c t p k _ _ rfl rfl) (fun k d => blockX_apply V c t k d _ rfl)
    (blockS_apply V c t p _ _ rfl rfl) (fun d => blockW_apply V c t d q) (blockB_apply V c t q)

/-- An index of the output array is in point `t`'s block iff each coordinate is in the block's range on its axis. -/
theorem mem_blk1 (t : Fin cfg1.N) (i : S4x4096x128.Idx) :
    i ∈ ((cfg1.win 5).blk t).view.set ↔ ∀ a : Fin 3, win1_5.index t a * S1x512x128.size a ≤ (i a).val
      ∧ (i a).val < win1_5.index t a * S1x512x128.size a + S1x512x128.size a := by
  show i ∈ ((View.whole main_v5).slice (win1_5.rect t)).set ↔ _
  rw [View.set_slice_whole, Rect.mem_set_unit]
  exact Iff.rfl

/-- The thirty-two blocks tile the array: entry `(g, n, o)` is in the block of point `8 g + n / 512`. -/
theorem cover1 (i : S4x4096x128.Idx) :
    ∃ t : Fin cfg1.N, (cfg1.win 5).flush t = true ∧ i ∈ ((cfg1.win 5).blk t).view.set := by
  have hi0 : (i 0).val < 4 := (i 0).isLt
  have hi1 : (i 1).val < 4096 := (i 1).isLt
  have hi2 : (i 2).val < 128 := (i 2).isLt
  obtain ⟨t, ht⟩ := pt_onto1 ⟨(i 0).val, hi0⟩ ⟨(i 1).val / 512, by omega⟩
  have ht' : t.val = 8 * (i 0).val + (i 1).val / 512 := ht
  obtain ⟨-, -, -, -, -, -, -, -, -, -, -, -, -, e0, e1, e2, -⟩ := idx_facts1 t
  refine ⟨t, flush1_5 t, ?_⟩
  rw [mem_blk1]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 128 ≤ (i 2).val ∧ (i 2).val < win1_5.index t (2 : Fin 3) * 128 + 128
    omega

/-- The output array after the propagation pass, as a function of the arrays the pass found. -/
theorem out_final (c : Dev nD) : (dat1 (F := Ideal) V c).arrAt 5 cfg1.N
    = Cert.Spec.passOut (V c main_arg1) (V c main_v2) (V c main_v0) (V c main_v3) (V c main_v4) :=
  (dat1 (F := Ideal) V c).arrAt_eq_of_cover 5
    (Cert.Spec.passOut (V c main_arg1) (V c main_v2) (V c main_v0) (V c main_v3) (V c main_v4))
    (fun t _ => flushed1_eq V c t) cover1

end Cert.KernelIdeal.Hand

end
-- ==== Proof.KIValue.lean ====
/-
  The idealized kernel program's result array as the kernel's arrangement of the layer.

  After the degree pass the scale array holds every node's scale. The host operations then spread the scales along the
  128 features and multiply them into the features (`Xs g k d = s g k · X g k d`), transpose the weights
  (`WT d o = W o d`) and lay the bias as a row. The propagation pass's output of those arrays is, entry by entry,
  `(∑_d ((∑_k A n k · (s k · X k d)) + s n · X n d) · W o d) · s n + b o`.
-/
import proofs.«111270_j75703093559638_1_alg».proof.Proof.KIRun
import proofs.«111270_j75703093559638_1_alg».proof.Proof.KIValue0
import proofs.«111270_j75703093559638_1_alg».proof.Proof.KIValue1
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the propagation pass finds -/

/-- The four argument arrays, as launched, and the five arrays the propagation pass finds, as functions on the extended reals. -/
abbrev argX (c : Dev nD) : Cert.Spec.XIdx → EReal := m ((c : Thread nD τ).loc main_arg0)
abbrev argA (c : Dev nD) : Cert.Spec.AIdx → EReal := m ((c : Thread nD τ).loc main_arg1)
abbrev argW (c : Dev nD) : Cert.Spec.WIdx → EReal := m ((c : Thread nD τ).loc main_arg2)
abbrev argB (c : Dev nD) : Cert.Spec.BIdx → EReal := m ((c : Thread nD τ).loc main_arg3)
def eAdj (c : Dev nD) : Cert.Spec.AIdx → EReal := V2 m ρ c main_arg1
def eFeat (c : Dev nD) : Cert.Spec.XIdx → EReal := V2 m ρ c main_v2
def eScale (c : Dev nD) : Cert.Spec.SIdx → EReal := V2 m ρ c main_v0
def eWt (c : Dev nD) : Cert.Spec.WIdx → EReal := V2 m ρ c main_v3
def eBias (c : Dev nD) : Cert.Spec.RIdx → EReal := V2 m ρ c main_v4
/-- The scale array and three of the arguments after the degree pass. -/
abbrev sclV1 (c : Dev nD) : Cert.Spec.SIdx → EReal := V1 m ρ c main_v0
abbrev xV1 (c : Dev nD) : Cert.Spec.XIdx → EReal := V1 m ρ c main_arg0
abbrev wV1 (c : Dev nD) : Cert.Spec.WIdx → EReal := V1 m ρ c main_arg2
abbrev bV1 (c : Dev nD) : Cert.Spec.BIdx → EReal := V1 m ρ c main_arg3

/-- The scale array after the degree pass. -/
theorem sclV1_eq (c : Dev nD) : sclV1 m ρ c = Cert.Spec.scaleCol (argA m c) :=
  (W1_arr m ρ c 1).trans (scale_final (V0 m ρ) c)

theorem xV1_eq (c : Dev nD) : xV1 m ρ c = argX m c := W1_of_ne m ρ c main_arg0 (by decide)
theorem wV1_eq (c : Dev nD) : wV1 m ρ c = argW m c := W1_of_ne m ρ c main_arg2 (by decide)
theorem bV1_eq (c : Dev nD) : bV1 m ρ c = argB m c := W1_of_ne m ρ c main_arg3 (by decide)
theorem V1_arg1 (c : Dev nD) : V1 m ρ c main_arg1 = m ((c : Thread nD τ).loc main_arg1) :=
  (W1_arr m ρ c 0).trans (((dat0 (V0 m ρ) c).arrAt_in 0 rfl _).trans (A_eq0 (V0 m ρ) c 0))

/-- The adjacency array and the scale array pass the host operations untouched. -/
theorem eAdj_eq (c : Dev nD) : eAdj m ρ c = argA m c := by
  unfold eAdj; exact (hostOps1_keeps m ρ c main_arg1 (by decide)).trans (V1_arg1 m ρ c)
theorem eScale_eq (c : Dev nD) : eScale m ρ c = Cert.Spec.scaleCol (argA m c) := by
  unfold eScale; exact (hostOps1_keeps m ρ c main_v0 (by decide)).trans (sclV1_eq m ρ c)

/-- The scaled features: the scales spread along the features, times the features. -/
theorem eFeat_eq (c : Dev nD) : eFeat m ρ c
    = (mulf (broadcastInDim S4x4096x128 ![0, 1, 2] bcast_S4x4096x1_S4x4096x128_0_1_2 (sclV1 m ρ c : FVec Ideal S4x4096x1 .f32))
        (xV1 m ρ c : FVec Ideal S4x4096x128 .f32) : FVec Ideal S4x4096x128 .f32) := by
  unfold eFeat
  show StableHlo.after hostOps1 (W1 m ρ c) (Proc.devRef .tc main_v2) = _
  after_results <;> rfl

/-- The transposed weights. -/
theorem eWt_eq (c : Dev nD) : eWt m ρ c
    = (transpose S128x128 [1, 0] (wV1 m ρ c : FVec Ideal S128x128 .f32) transposes_S128x128_S128x128_1_0 : FVec Ideal S128x128 .f32) := by
  unfold eWt
  show StableHlo.after hostOps1 (W1 m ρ c) (Proc.devRef .tc main_v3) = _
  after_results <;> rfl

/-- The bias as a row. -/
theorem eBias_eq (c : Dev nD) : eBias m ρ c
    = (shapeCast S1x128 (bV1 m ρ c : FVec Ideal S128 .f32) shapeCasts_S128_S1x128 : FVec Ideal S1x128 .f32) := by
  unfold eBias
  show StableHlo.after hostOps1 (W1 m ρ c) (Proc.devRef .tc main_v4) = _
  after_results <;> rfl

/-! ## Read at an entry -/

theorem feat_apply (c : Dev nD) (g : Fin 4) (k : Fin 4096) (d : Fin 128) :
    eFeat m ρ c (ix3 g k d) = Cert.Spec.scaleK (argA m c) g k * argX m c (ix3 g k d) := by
  rw [eFeat_eq, mulf_apply, xV1_eq]
  rw [broadcastInDim_apply _ bcast_S4x4096x1_S4x4096x128_0_1_2 _ (ix3 g k d) (ix3 g k (0 : Fin 1)) (fun a => by
    match a with
    | ⟨0, _⟩ => show g.val = if (4 : Nat) = 1 then 0 else g.val; rw [if_neg (by decide)]
    | ⟨1, _⟩ => show k.val = if (4096 : Nat) = 1 then 0 else k.val; rw [if_neg (by decide)]
    | ⟨2, _⟩ => show 0 = if (1 : Nat) = 1 then 0 else d.val; rw [if_pos rfl])]
  rw [sclV1_eq]
  rfl

theorem wt_apply (c : Dev nD) (d o : Fin 128) : eWt m ρ c (ix2 d o) = argW m c (ix2 o d) := by
  rw [eWt_eq, wV1_eq]
  exact transpose_apply _ _ _ (ix2 d o) (ix2 o d) (fun b => by
    match b with
    | ⟨0, _⟩ => rfl
    | ⟨1, _⟩ => rfl)

theorem bias_apply (c : Dev nD) (o : Fin 128) : eBias m ρ c (ix2 (0 : Fin 1) o) = argB m c (ix1 o) := by
  rw [eBias_eq, bV1_eq]
  exact shapeCast_a_1a_apply _ _ _ _

/-! ## The result array -/

/-- The propagation pass's output of the arrays it finds is the kernel's arrangement of the layer, of the four arguments. -/
theorem passOut_eq (c : Dev nD) : Cert.Spec.passOut (eAdj m ρ c) (eFeat m ρ c) (eScale m ρ c) (eWt m ρ c) (eBias m ρ c)
    = Cert.Spec.outK (argX m c) (argA m c) (argW m c) (argB m c) := by
  funext i
  obtain ⟨g, n, o, rfl⟩ : ∃ (g : Fin 4) (n : Fin 4096) (o : Fin 128), i = ix3 g n o := ⟨i 0, i 1, i 2, eq_ix3 i⟩
  show (∑ d : Fin 128, ((∑ k : Fin 4096, eAdj m ρ c (ix3 g n k) * eFeat m ρ c (ix3 g k d)) + eFeat m ρ c (ix3 g n d))
        * eWt m ρ c (ix2 d o)) * eScale m ρ c (ix3 g n (0 : Fin 1)) + eBias m ρ c (ix2 (0 : Fin 1) o)
      = (∑ d : Fin 128, ((∑ k : Fin 4096, argA m c (ix3 g n k) * (Cert.Spec.scaleK (argA m c) g k * argX m c (ix3 g k d)))
        + Cert.Spec.scaleK (argA m c) g n * argX m c (ix3 g n d)) * argW m c (ix2 o d)) * Cert.Spec.scaleK (argA m c) g n + argB m c (ix1 o)
  simp only [feat_apply, wt_apply, bias_apply, eAdj_eq, eScale_eq]
  rfl

/-- The result array the run leaves is the kernel's arrangement of the layer, of the four argument arrays. -/
theorem kernel_final (c : Dev nD) : (dat1 (F := Ideal) (V2 m ρ) c).arrAt 5 cfg1.N
    = Cert.Spec.outK (m ((c : Thread nD τ).loc main_arg0)) (m ((c : Thread nD τ).loc main_arg1))
        (m ((c : Thread nD τ).loc main_arg2)) (m ((c : Thread nD τ).loc main_arg3)) := by
  rw [out_final (V2 m ρ) c]
  exact passOut_eq m ρ c

end Cert.KernelIdeal.Hand

end
-- ==== Proof.RefValue.lean ====
/-
  The reference program's result, read one operation at a time, is the reference's arrangement of the layer.

  The program builds the self loop as a comparison of a row counter with a column counter, adds it to the adjacency,
  sums each row from zero to get the degree, takes the inverse square root where the degree is above zero, scales the
  adjacency with the self loop by it on the left and on the right, contracts with the features over the node axis, then
  with the dense layer over the feature axis, and adds the bias. Each stage is read at an index given by its
  coordinates; the composed index maps of the broadcasts are the coordinates they keep.
-/
import proofs.«111270_j75703093559638_1_alg».proof.Proof.Gen.ReferenceIdeal.Read
import proofs.«111270_j75703093559638_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The self loop -/

/-- Two counters below 4096, as 32-bit words, are equal exactly when the counters are. -/
theorem ofNat_inj_of_lt (n k : Fin 4096) : BitVec.ofNat 32 n.val = BitVec.ofNat 32 k.val ↔ n = k := by
  constructor
  · intro h
    have h' := congrArg BitVec.toNat h
    simp only [BitVec.toNat_ofNat] at h'
    have hn := n.isLt
    have hk := k.isLt
    exact Fin.ext (by omega)
  · intro h; rw [h]

/-- The row counter plus the zero word, compared for equality with the column counter and read as an unsigned number,
    is one on the diagonal and zero off it. -/
theorem eye_word (n k : Fin 4096) :
    FloatOps.uitofp (F := Ideal) .f32 (IntOp.cmpi .eq (IntOp.addi (BitVec.ofNat 32 n.val) 0#32) (BitVec.ofNat 32 k.val))
      = Cert.Spec.eye n k := by
  have h0 : IntOp.addi (BitVec.ofNat 32 n.val) 0#32 = BitVec.ofNat 32 n.val := by
    unfold IntOp.addi; exact BitVec.add_zero _
  rw [h0]
  unfold Cert.Spec.eye
  by_cases h : n = k
  · subst h
    rw [if_pos rfl]
    have : IntOp.cmpi .eq (BitVec.ofNat 32 n.val) (BitVec.ofNat 32 n.val) = 1#1 := by
      unfold IntOp.cmpi; simp
    rw [this]
    show (((1#1 : BitVec 1).toNat : ℝ) : EReal) = 1
    simp
  · rw [if_neg h]
    have hne : BitVec.ofNat 32 n.val ≠ BitVec.ofNat 32 k.val := fun e => h ((ofNat_inj_of_lt n k).1 e)
    have : IntOp.cmpi .eq (BitVec.ofNat 32 n.val) (BitVec.ofNat 32 k.val) = 0#1 := by
      unfold IntOp.cmpi
      have hb : (BitVec.ofNat 32 n.val == BitVec.ofNat 32 k.val) = false := beq_eq_false_iff_ne.2 hne
      show BitVec.ofBool (BitVec.ofNat 32 n.val == BitVec.ofNat 32 k.val) = 0#1
      rw [hb]; rfl
    rw [this]
    show (((0#1 : BitVec 1).toNat : ℝ) : EReal) = 0
    simp

/-- The converted comparison at row `n`, column `k`. -/
theorem v5_at (n k : Fin 4096) : val_main_v5 (F := Ideal) (ix2 n k) = Cert.Spec.eye n k := by
  rw [val_main_v5_apply, val_main_v4_apply, val_main_v3_apply, val_main_v2_apply, val_main_c_apply,
    val_main_v0_apply, val_main_v1_apply]
  exact eye_word n k

/-- The self loop broadcast over the batch. -/
theorem v7_at (g : Fin 4) (n k : Fin 4096) : val_main_v7 (F := Ideal) (ix3 g n k) = Cert.Spec.eye n k := by
  rw [val_main_v7_apply, val_main_v6_apply]
  have e : idx_main_v6 (idx_main_v7 (ix3 g n k)) = ix2 n k :=
    funext fun a => Fin.ext (by match a with | ⟨0, _⟩ => rfl | ⟨1, _⟩ => rfl)
  rw [e]
  exact v5_at n k

/-- The adjacency with the self loop. -/
theorem v8_at (x1 : (⟨S4x4096x4096, .f32⟩ : BufTy).Contents (Elt Ideal)) (g : Fin 4) (n k : Fin 4096) :
    val_main_v8 (F := Ideal) x1 (ix3 g n k) = x1 (ix3 g n k) + Cert.Spec.eye n k := by
  rw [val_main_v8_apply, v7_at]
  rfl

/-! ## The degree and its inverse square root -/

/-- The row sum from zero. -/
theorem v9_at (x1 : (⟨S4x4096x4096, .f32⟩ : BufTy).Contents (Elt Ideal)) (g : Fin 4) (n : Fin 4096) :
    val_main_v9 (F := Ideal) x1 (ix2 g n) = Cert.Spec.degR x1 g n := by
  rw [val_main_v9_apply, val_main_cst_apply]
  unfold Cert.Spec.degR
  have z : FloatOps.ofBits (F := Ideal) .f32 0x00000000#32 = (0 : EReal) := Ideal.ofBits_zero_f32
  rw [z]
  refine congrArg (0 + ·) (Finset.sum_congr rfl fun k _ => ?_)
  have e : idx_main_v9 (ix2 g n) k = ix3 g n k :=
    funext fun a => Fin.ext (by match a with | ⟨0, _⟩ => rfl | ⟨1, _⟩ => rfl | ⟨2, _⟩ => rfl)
  rw [e]
  exact v8_at x1 g n k

/-- The select on "the degree is above zero" between the inverse square root and zero. -/
theorem scale_word (d : EReal) :
    Scalar.select (FloatOps.cmpf (F := Ideal) (φ := .f32) .ogt d (FloatOps.ofBits (F := Ideal) .f32 0x00000000#32))
        (FloatOps.hostUnary (F := Ideal) (φ := .f32) .rsqrt d) (FloatOps.ofBits (F := Ideal) .f32 0x00000000#32)
      = Cert.Spec.invSqrtPos d := by
  have z : FloatOps.ofBits (F := Ideal) .f32 0x00000000#32 = (0 : EReal) := Ideal.ofBits_zero_f32
  rw [z, Ideal.cmpf_def, Ideal.hostUnary_rsqrt_def]
  unfold Cert.Spec.invSqrtPos
  exact Cert.Spec.select_ogt_zero d (Ideal.rsqrt d) 0

/-- The scale of node `n` of graph `g`. -/
theorem v13_at (x1 : (⟨S4x4096x4096, .f32⟩ : BufTy).Contents (Elt Ideal)) (g : Fin 4) (n : Fin 4096) :
    val_main_v13 (F := Ideal) x1 (ix2 g n) = Cert.Spec.scaleR x1 g n := by
  rw [val_main_v13_apply, val_main_v11_apply, val_main_v12_apply, val_main_v10_apply, val_main_cst_0_apply,
    val_main_call0_v1_apply, val_main_call0_v0_apply, val_main_cst_1_apply, v9_at]
  unfold Cert.Spec.scaleR
  exact scale_word _

/-! ## The scaled adjacency and the two contractions -/

/-- The adjacency with the self loop, scaled by the row's scale on the left and the column's on the right. -/
theorem v19_at (x1 : (⟨S4x4096x4096, .f32⟩ : BufTy).Contents (Elt Ideal)) (g : Fin 4) (n k : Fin 4096) :
    val_main_v19 (F := Ideal) x1 (ix3 g n k)
      = (Cert.Spec.scaleR x1 g n * (x1 (ix3 g n k) + Cert.Spec.eye n k)) * Cert.Spec.scaleR x1 g k := by
  rw [val_main_v19_apply, val_main_v16_apply, val_main_v15_apply, val_main_v14_apply, val_main_v18_apply,
    val_main_v17_apply, v8_at]
  have eL : idx_main_v14 (idx_main_v15 (ix3 g n k)) = ix2 g n :=
    funext fun a => Fin.ext (by match a with | ⟨0, _⟩ => rfl | ⟨1, _⟩ => rfl)
  have eR : idx_main_v17 (idx_main_v18 (ix3 g n k)) = ix2 g k :=
    funext fun a => Fin.ext (by match a with | ⟨0, _⟩ => rfl | ⟨1, _⟩ => rfl)
  rw [eL, eR, v13_at, v13_at]
  rfl

/-- The contraction with the features over the node axis. -/
theorem v20_at (x0 : (⟨S4x4096x128, .f32⟩ : BufTy).Contents (Elt Ideal)) (x1 : (⟨S4x4096x4096, .f32⟩ : BufTy).Contents (Elt Ideal))
    (g : Fin 4) (n : Fin 4096) (d : Fin 128) :
    val_main_v20 (F := Ideal) x0 x1 (ix3 g n d)
      = ∑ k : Fin 4096, ((Cert.Spec.scaleR x1 g n * (x1 (ix3 g n k) + Cert.Spec.eye n k)) * Cert.Spec.scaleR x1 g k) * x0 (ix3 g k d) := by
  rw [val_main_v20_apply]
  refine Finset.sum_congr rfl fun k _ => ?_
  have eL : lidx_main_v20 (ix3 g n d) k = ix3 g n k :=
    funext fun a => Fin.ext (by match a with | ⟨0, _⟩ => rfl | ⟨1, _⟩ => rfl | ⟨2, _⟩ => rfl)
  have eR : ridx_main_v20 (ix3 g n d) k = ix3 g k d :=
    funext fun a => Fin.ext (by match a with | ⟨0, _⟩ => rfl | ⟨1, _⟩ => rfl | ⟨2, _⟩ => rfl)
  rw [eL, eR, v19_at]

/-- The contraction with the dense layer over the feature axis. -/
theorem v21_at (x0 : (⟨S4x4096x128, .f32⟩ : BufTy).Contents (Elt Ideal)) (x1 : (⟨S4x4096x4096, .f32⟩ : BufTy).Contents (Elt Ideal))
    (x2 : (⟨S128x128, .f32⟩ : BufTy).Contents (Elt Ideal)) (g : Fin 4) (n : Fin 4096) (o : Fin 128) :
    val_main_v21 (F := Ideal) x0 x1 x2 (ix3 g n o)
      = ∑ d : Fin 128, (∑ k : Fin 4096, ((Cert.Spec.scaleR x1 g n * (x1 (ix3 g n k) + Cert.Spec.eye n k)) * Cert.Spec.scaleR x1 g k) * x0 (ix3 g k d))
          * x2 (ix2 o d) := by
  rw [val_main_v21_apply]
  refine Finset.sum_congr rfl fun d _ => ?_
  have eL : lidx_main_v21 (ix3 g n o) d = ix3 g n d :=
    funext fun a => Fin.ext (by match a with | ⟨0, _⟩ => rfl | ⟨1, _⟩ => rfl | ⟨2, _⟩ => rfl)
  have eR : ridx_main_v21 (ix3 g n o) d = ix2 o d :=
    funext fun a => Fin.ext (by match a with | ⟨0, _⟩ => rfl | ⟨1, _⟩ => rfl)
  rw [eL, eR, v20_at]

/-- The bias broadcast over graphs and nodes. -/
theorem v23_at (x3 : (⟨S128, .f32⟩ : BufTy).Contents (Elt Ideal)) (g : Fin 4) (n : Fin 4096) (o : Fin 128) :
    val_main_v23 (F := Ideal) x3 (ix3 g n o) = x3 (ix1 o) := by
  rw [val_main_v23_apply, val_main_v22_apply]
  have e : idx_main_v22 (idx_main_v23 (ix3 g n o)) = ix1 o :=
    funext fun a => Fin.ext (by match a with | ⟨0, _⟩ => rfl)
  rw [e]

/-- The last stage of the reference, as a function of the four arguments, is `Cert.Spec.outR` of them. -/
theorem ref_eq (x0 : (⟨S4x4096x128, .f32⟩ : BufTy).Contents (Elt Ideal)) (x1 : (⟨S4x4096x4096, .f32⟩ : BufTy).Contents (Elt Ideal))
    (x2 : (⟨S128x128, .f32⟩ : BufTy).Contents (Elt Ideal)) (x3 : (⟨S128, .f32⟩ : BufTy).Contents (Elt Ideal)) :
    val_main_v24 (F := Ideal) x0 x1 x2 x3 = Cert.Spec.outR x0 x1 x2 x3 := by
  funext i
  obtain ⟨g, n, o, rfl⟩ : ∃ (g : Fin 4) (n : Fin 4096) (o : Fin 128), i = ix3 g n o := ⟨i 0, i 1, i 2, eq_ix3 i⟩
  rw [val_main_v24_apply, v21_at, v23_at]
  rfl

end Cert.ReferenceIdeal.RefValue

end
-- ==== Proof.Algebra.lean ====
/-
  The two arrangements of the graph-convolution layer agree on finite inputs.

  Three steps. The two degrees are one number: the self loop's diagonal sums to one over a row, so adding it entry by
  entry is adding one to the row sum; hence the two scales are one function. On real entries every scale is a real
  number: the degree is a real, and the inverse square root of a positive real is a real (zero is taken elsewhere).
  Then both arrangements are the images of two real expressions, and over the reals
  ∑_k s n · (a k + [n = k]) · s k · x k d = s n · (∑_k a k · (s k · x k d) + s n · x n d),
  after which the factor s n is carried out of the sum over d.
-/
import proofs.«111270_j75703093559638_1_alg».proof.Proof.Spec

noncomputable section

open scoped BigOperators

namespace Cert.Spec

open Idealize.ShloMosaic Idealize.ShloMosaic.ValueIdx

/-- The embedding of the reals in the extended reals goes through a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The self loop's entry is the image of a real number. -/
theorem eye_coe (n k : Fin 4096) : eye n k = (((if n = k then 1 else 0 : ℝ)) : EReal) := by
  unfold eye
  by_cases h : n = k
  · rw [if_pos h, if_pos h, EReal.coe_one]
  · rw [if_neg h, if_neg h, EReal.coe_zero]

/-- The two degrees are one number: the diagonal of ones sums to one over a row. -/
theorem degR_eq_degK (A : AIdx → EReal) (g : Fin 4) (n : Fin 4096) : degR A g n = degK A g n := by
  unfold degR degK eye
  rw [zero_add, Finset.sum_add_distrib, Finset.sum_ite_eq]
  rw [if_pos (Finset.mem_univ n)]

/-- Hence the two scales are one function. -/
theorem scaleR_eq_scaleK (A : AIdx → EReal) (g : Fin 4) (n : Fin 4096) : scaleR A g n = scaleK A g n := by
  unfold scaleR scaleK
  rw [degR_eq_degK]

/-- The guarded inverse square root of a real number is a real number. -/
theorem invSqrtPos_coe (r : ℝ) : ∃ s : ℝ, invSqrtPos (r : EReal) = (s : EReal) := by
  unfold invSqrtPos
  by_cases h : (0 : EReal) < (r : EReal)
  · have hr : 0 < r := EReal.coe_pos.mp h
    refine ⟨(Real.sqrt r)⁻¹, ?_⟩
    rw [if_pos h, Ideal.rsqrt_coe, if_neg (not_lt.mpr hr.le), if_neg hr.ne']
  · exact ⟨0, by rw [if_neg h, EReal.coe_zero]⟩

/-- On a real adjacency every scale of a graph is a real number. -/
theorem scaleK_real (A : AIdx → EReal) (hA : Finite A) (g : Fin 4) :
    ∃ s : Fin 4096 → ℝ, ∀ k, scaleK A g k = (s k : EReal) := by
  choose a ha using hA
  have h : ∀ k, ∃ r : ℝ, scaleK A g k = (r : EReal) := by
    intro k
    have hd : degK A g k = (((∑ k' : Fin 4096, a (ix3 g k k')) + 1 : ℝ) : EReal) := by
      unfold degK
      rw [EReal.coe_add, coe_sum, EReal.coe_one]
      simp only [ha]
    unfold scaleK
    rw [hd]
    exact invSqrtPos_coe _
  exact ⟨fun k => (h k).choose, fun k => (h k).choose_spec⟩

/-- The identity over the reals: the scale of the row is carried out of both sums, and the diagonal term of the
    inner sum is the self loop's extra row. -/
theorem real_identity {κ δ : Type} [Fintype κ] [DecidableEq κ] [Fintype δ]
    (a s : κ → ℝ) (x : κ → δ → ℝ) (w : δ → ℝ) (β : ℝ) (n : κ) :
    (∑ d, ((∑ k, a k * (s k * x k d)) + s n * x n d) * w d) * s n + β
      = (∑ d, (∑ k, ((s n * (a k + (if n = k then 1 else 0))) * s k) * x k d) * w d) + β := by
  have inner : ∀ d, (∑ k, ((s n * (a k + (if n = k then 1 else 0))) * s k) * x k d)
      = s n * ((∑ k, a k * (s k * x k d)) + s n * x n d) := by
    intro d
    have h1 : ∀ k, ((s n * (a k + (if n = k then 1 else 0))) * s k) * x k d
        = s n * (a k * (s k * x k d)) + (if n = k then s n * (s k * x k d) else 0) := by
      intro k
      by_cases h : n = k
      · rw [if_pos h, if_pos h]; ring
      · rw [if_neg h, if_neg h]; ring
    rw [Finset.sum_congr rfl (fun k _ => h1 k), Finset.sum_add_distrib, Finset.sum_ite_eq,
      if_pos (Finset.mem_univ n), ← Finset.mul_sum]
    ring
  rw [Finset.sum_mul]
  congr 1
  refine Finset.sum_congr rfl (fun d _ => ?_)
  rw [inner d]
  ring

/-- On arrays of real numbers the kernel's arrangement and the reference's are one function. -/
theorem outK_eq_outR (X : XIdx → EReal) (A : AIdx → EReal) (W : WIdx → EReal) (b : BIdx → EReal)
    (hX : Finite X) (hA : Finite A) (hW : Finite W) (hb : Finite b) : outK X A W b = outR X A W b := by
  funext i
  obtain ⟨g, n, o, rfl⟩ : ∃ (g : Fin 4) (n : Fin 4096) (o : Fin 128), i = ix3 g n o :=
    ⟨i 0, i 1, i 2, eq_ix3 i⟩
  obtain ⟨s, hs⟩ := scaleK_real A hA g
  choose x hx using hX
  choose a ha using hA
  choose w hw using hW
  choose β hβ using hb
  show (∑ d : Fin 128, ((∑ k : Fin 4096, A (ix3 g n k) * (scaleK A g k * X (ix3 g k d)))
        + scaleK A g n * X (ix3 g n d)) * W (ix2 o d)) * scaleK A g n + b (ix1 o)
      = (∑ d : Fin 128, (∑ k : Fin 4096, ((scaleR A g n * (A (ix3 g n k) + eye n k)) * scaleR A g k)
        * X (ix3 g k d)) * W (ix2 o d)) + b (ix1 o)
  simp only [scaleR_eq_scaleK, hs, hx, ha, hw, hβ, eye_coe]
  simp only [← EReal.coe_mul, ← EReal.coe_add, ← coe_sum]
  exact congrArg _ (real_identity (fun k => a (ix3 g n k)) s (fun k d => x (ix3 g k d))
    (fun d => w (ix2 o d)) (β (ix1 o)) n)

end Cert.Spec

end
-- ==== Proof.Finite.lean ====
/-
  The precondition says every entry of every input is a real number.

  The predicate compares the absolute value of every entry of each of the four arrays with +∞, takes the conjunction of
  the comparison bits over all entries of an array, and then the conjunction of the four results. If that bit is 1, each
  of the four conjunctions is 1, so each comparison bit is 1: `max x (-x) < ⊤` at every entry `x`. On the extended reals
  that excludes `⊤` (`max ⊤ ⊥ = ⊤`) and `⊥` (`max ⊥ ⊤ = ⊤`), which leaves the real numbers.
-/
import proofs.«111270_j75703093559638_1_alg».proof.Pre_finite_inputs
import proofs.«111270_j75703093559638_1_alg».proof.Proof.Spec
import Idealize.ShloMosaic.Lib.ReduceAll

noncomputable section

namespace Cert.Spec

open Idealize.ShloMosaic Idealize.ShloMosaic.ValueIdx

/-- The f32 word with sign clear, exponent all ones and fraction zero denotes +∞. -/
theorem finite_ofBits_pos_inf : Ideal.ofBits .f32 0x7F800000#32 = (⊤ : EReal) := by
  simp [Ideal.ofBits, Ideal.ieee]

/-- An extended real whose absolute value `max x (-x)` compares strictly below +∞ is a real number:
    `⊤` gives `max ⊤ ⊥ = ⊤` and `⊥` gives `max ⊥ ⊤ = ⊤`, neither strictly below `⊤`. -/
theorem finite_real_of_abs_lt_top (x : EReal) (h : Ideal.cmp .olt (max x (-x)) (⊤ : EReal) = 1#1) :
    ∃ r : ℝ, x = (r : EReal) := by
  induction x using EReal.rec with
  | bot => exact absurd h (by simp [Ideal.cmp])
  | coe r => exact ⟨r, rfl⟩
  | top => exact absurd h (by simp [Ideal.cmp])

/-- One array of any shape: if the conjunction, over all entries, of the bits `|x i| < +∞` (the reduction by `and`
    over all axes into the one-element shape, started from 1) is 1, every entry of `x` is a real number. -/
theorem finite_of_all {s : Shape} {axes : List (Fin s.rank)}
    (hred : s.ReducesTo axes Cert.Pre_finite_inputs.S_) (hS : 0 < Cert.Pre_finite_inputs.S_.numel)
    (hb : Cert.Pre_finite_inputs.S_.BroadcastsInDim s (![] : Fin 0 → Fin s.rank)) (x : FVec Ideal s .f32)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hred hS ix0 = 1#1) :
    Finite x := by
  intro i
  -- the rank-0 shape has exactly one index, so every entry of the operand reduces into it
  haveI : Subsingleton Cert.Pre_finite_inputs.S_.Idx := ⟨fun a b => funext fun d => d.elim0⟩
  have hi := Host.reduce_andi_all _ _ hred hS ix0 h i
  -- entry `i` of the compared array is the comparison of `max (x i) (-(x i))` with the value of the +∞ word
  have hi' : Ideal.cmp .olt (max (x i) (-(x i))) (Ideal.ofBits .f32 0x7F800000#32) = 1#1 := hi
  rw [finite_ofBits_pos_inf] at hi'
  exact finite_real_of_abs_lt_top (x i) hi'

/-- If the precondition's predicate is all ones on four arrays of extended reals, each array is finite. -/
theorem finite_of_pre [Cert.Pre_finite_inputs.Facts]
    (x0 : FVec Ideal Cert.Pre_finite_inputs.S4x4096x128 .f32) (x1 : FVec Ideal Cert.Pre_finite_inputs.S4x4096x4096 .f32)
    (x2 : FVec Ideal Cert.Pre_finite_inputs.S128x128 .f32) (x3 : FVec Ideal Cert.Pre_finite_inputs.S128 .f32)
    (h : Cert.Pre_finite_inputs.fn (F := Ideal) x0 x1 x2 x3 = fun _ => 1#1) :
    Finite x0 ∧ Finite x1 ∧ Finite x2 ∧ Finite x3 := by
  have h0 := congrFun h ix0
  dsimp only [Cert.Pre_finite_inputs.fn, Cert.Pre_finite_inputs.fn_part1] at h0
  -- the result bit is the conjunction ((b0 ∧ b1) ∧ b2) ∧ b3 of the four arrays' bits
  obtain ⟨h012, h3⟩ := IntOp.andi_eq_one.1 h0
  obtain ⟨h01, h2⟩ := IntOp.andi_eq_one.1 h012
  obtain ⟨h0', h1⟩ := IntOp.andi_eq_one.1 h01
  exact ⟨finite_of_all _ _ _ x0 h0', finite_of_all _ _ _ x1 h1, finite_of_all _ _ _ x2 h2, finite_of_all _ _ _ x3 h3⟩

end Cert.Spec

end
-- ==== Proof.lean ====
/-
  The proof of `Cert.Claim`: a graph-convolution layer — self loops, symmetric degree normalisation, propagation, a
  dense layer with bias — computed by two Pallas passes against its plain array formula.

  The kernel program makes one pass over the adjacency array to get every node's scale `s` (the inverse square root of
  its degree with the self loop, zero where the degree is not positive), scales the features on the host, and in a second
  pass computes `(∑_d ((∑_k A n k · (s k · X k d)) + s n · X n d) · W o d) · s n + b o`. The reference computes
  `∑_d (∑_k s n · (A n k + [n = k]) · s k · X k d) · W o d + b o`. On the extended reals the narrowing of the matrix
  products' operands is the identity, and on finite inputs every scale is a real number, so the row scale leaves both
  sums and the self loop's diagonal sum collapses to its one term: the two arrays are equal entry by entry.

  The modules: `Spec` / `SpecPass` (the two arrangements as whole-array functions), `Algebra` (they agree on finite
  inputs), `Finite` (the precondition gives finiteness), `RefValue` (the reference's run is its arrangement),
  `KIRegion0` / `KIRegion1` / `KIRun` (each pass's body, proof data and obligation; the program's run with every
  final buffer named) and their word-level counterparts `KRegion0` / `KRegion1` / `KRun`, `KIPay` (the bodies'
  arithmetic at an entry), `KIValue0` / `KIValue1` (from blocks to arrays), `KIValue` (the result array is the kernel's
  arrangement), `LibPlainDot` (a matrix product at an entry).
-/
import proofs.«111270_j75703093559638_1_alg».proof.Defs
import proofs.«111270_j75703093559638_1_alg».proof.Proof.Gen.Kernel
import proofs.«111270_j75703093559638_1_alg».proof.Proof.Gen.KernelIdeal
import proofs.«111270_j75703093559638_1_alg».proof.Proof.Gen.ReferenceIdeal
import proofs.«111270_j75703093559638_1_alg».proof.Proof.Gen.ReferenceIdeal.Run
import proofs.«111270_j75703093559638_1_alg».proof.Proof.Gen.ReferenceIdeal.Read
import proofs.«111270_j75703093559638_1_alg».proof.Proof.Gen.Pre_finite_inputs
import proofs.«111270_j75703093559638_1_alg».proof.Proof.KRun
import proofs.«111270_j75703093559638_1_alg».proof.Proof.KIRun
import proofs.«111270_j75703093559638_1_alg».proof.Proof.KIValue
import proofs.«111270_j75703093559638_1_alg».proof.Proof.RefValue
import proofs.«111270_j75703093559638_1_alg».proof.Proof.Algebra
import proofs.«111270_j75703093559638_1_alg».proof.Proof.Finite
import Idealize.ShloMosaic.Adequacy
import Idealize.ShloMosaic.Init

noncomputable section

namespace Cert.Proof

open Idealize.ShloMosaic Idealize.SL.Sem

/-- The word-level program runs to the end and keeps its arguments: its run with the result dropped. -/
theorem frame_k : Cert.frame_Kernel := fun m ρ _ =>
  (θ_run Cert.Kernel.defs _ _).mono (fun _ h c => (h c).2) (Cert.Kernel.Hand.run_main (F := Bits) m ρ)

/-- So does the idealized program. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs the idealized kernel program's result array and the reference's are the kernel's arrangement of
    the layer and the reference's, of the same four arrays: equal. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_final m ρ c), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    obtain ⟨hX, hA, hW, hb⟩ := Cert.Spec.finite_of_pre _ _ _ _ (hpre c)
    rw [(h c).1, Cert.ReferenceIdeal.Read.val_main_v24_eq, Cert.ReferenceIdeal.RefValue.ref_eq,
      (hagree c).1, (hagree c).2.1, (hagree c).2.2.1, (hagree c).2.2.2]
    exact (Cert.Spec.outK_eq_outR _ _ _ _ hX hA hW hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
